-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64 : Shape := ⟨2, ![512, 64]⟩
abbrev S512x8x200x64 : Shape := ⟨4, ![512, 8, 200, 64]⟩
abbrev S36x256 : Shape := ⟨2, ![36, 256]⟩
abbrev S36 : Shape := ⟨1, ![36]⟩
abbrev S_ : Shape := ⟨0, ![]⟩
abbrev S1x36 : Shape := ⟨2, ![1, 36]⟩
abbrev S1 : Shape := ⟨1, ![1]⟩
abbrev S512x8x200x1 : Shape := ⟨4, ![512, 8, 200, 1]⟩

class Facts : Prop where
  bcast_S_S512x64 : S_.BroadcastsInDim S512x64 (![] : Fin 0 → Fin S512x64.rank)
  reducesTo_S512x64_S_d0_1 : S512x64.ReducesTo [0, 1] S_
  h_S_ : 0 < S_.numel
  bcast_S_S512x8x200x64 : S_.BroadcastsInDim S512x8x200x64 (![] : Fin 0 → Fin S512x8x200x64.rank)
  reducesTo_S512x8x200x64_S_d0_1_2_3 : S512x8x200x64.ReducesTo [0, 1, 2, 3] S_
  bcast_S_S36x256 : S_.BroadcastsInDim S36x256 (![] : Fin 0 → Fin S36x256.rank)
  reducesTo_S36x256_S_d0_1 : S36x256.ReducesTo [0, 1] S_
  bcast_S_S36 : S_.BroadcastsInDim S36 (![] : Fin 0 → Fin S36.rank)
  reducesTo_S36_S_d0 : S36.ReducesTo [0] S_
  reducesTo_S_S_d : S_.ReducesTo [] S_
  bcast_S_S1x36 : S_.BroadcastsInDim S1x36 (![] : Fin 0 → Fin S1x36.rank)
  reducesTo_S1x36_S_d0_1 : S1x36.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S_ .f32) (main_arg5 : FVec F S1x36 .f32) (main_arg6 : FVec F S1 .f32) (main_v13 : IVec S_ 1) (main_v16 : IVec S36 1) : IVec S_ 1 :=
  let main_c_5 : IVec S_ 1 := constantI S_ 1 1#1
  let main_v17 : IVec S_ 1 := (fun x v => Host.reduce IntOp.andi x v reducesTo_S36_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S1x36 .f32 := Host.absf main_arg5
  let main_cst_8 : FVec F S_ .f32 := constant S_ .f32 0x7F800000#32
  let main_v24 : FVec F S1x36 .f32 := broadcastInDim S1x36 ![] bcast_S_S1x36 main_cst_8
  let main_v25 : IVec S1x36 1 := cmpf .olt main_v23 main_v24
  let main_c_9 : IVec S_ 1 := constantI S_ 1 1#1
  let main_v26 : IVec S_ 1 := (fun x v => Host.reduce IntOp.andi x v reducesTo_S1x36_S_d0_1 h_S_) main_v25 main_c_9
  let main_v27 : IVec S_ 1 := andi main_v22 main_v26
  let main_v28 : FVec F S1 .f32 := Host.absf main_arg6
  let main_cst_10 : FVec F S_ .f32 := constant S_ .f32 0x7F800000#32
  let main_v29 : FVec F S1 .f32 := broadcastInDim S1 ![] bcast_S_S1 main_cst_10
  let main_v30 : IVec S1 1 := cmpf .olt main_v28 main_v29
  let main_c_11 : IVec S_ 1 := constantI S_ 1 1#1
  let main_v31 : IVec S_ 1 := (fun x v => Host.reduce IntOp.andi x v reducesTo_S1_S_d0 h_S_) main_v30 main_c_11
  let main_v32 : IVec S_ 1 := andi main_v27 main_v31
  main_v32

def fn {F : FTy → Type} [FloatOps F] (main_arg0 : FVec F S512x64 .f32) (main_arg1 : FVec F S512x8x200x64 .f32) (main_arg2 : FVec F S36x256 .f32) (main_arg3 : FVec F S36 .f32) (main_arg4 : FVec F S_ .f32) (main_arg5 : FVec F S1x36 .f32) (main_arg6 : FVec F S1 .f32) (main_arg7 : IVec S512x8x200x1 1) : IVec S_ 1 :=
  let main_v0 : FVec F S512x64 .f32 := Host.absf main_arg0
  let main_cst : FVec F S_ .f32 := constant S_ .f32 0x7F800000#32
  let main_v1 : FVec F S512x64 .f32 := broadcastInDim S512x64 ![] bcast_S_S512x64 main_cst
  let main_v2 : IVec S512x64 1 := cmpf .olt main_v0 main_v1
  let main_c : IVec S_ 1 := constantI S_ 1 1#1
  let main_v3 : IVec S_ 1 := (fun x v => Host.reduce IntOp.andi x v reducesTo_S512x64_S_d0_1 h_S_) main_v2 main_c
  let main_v4 : FVec F S512x8x200x64 .f32 := Host.absf main_arg1
  let main_cst_0 : FVec F S_ .f32 := constant S_ .f32 0x7F800000#32
  let main_v5 : FVec F S512x8x200x64 .f32 := broadcastInDim S512x8x200x64 ![] bcast_S_S512x8x200x64 main_cst_0
  let main_v6 : IVec S512x8x200x64 1 := cmpf .olt main_v4 main_v5
  let main_c_1 : IVec S_ 1 := constantI S_ 1 1#1
  let main_v7 : IVec S_ 1 := (fun x v => Host.reduce IntOp.andi x v reducesTo_S512x8x200x64_S_d0_1_2_3 h_S_) main_v6 main_c_1
  let main_v8 : IVec S_ 1 := andi main_v3 main_v7
  let main_v9 : FVec F S36x256 .f32 := Host.absf main_arg2
  let main_cst_2 : FVec F S_ .f32 := constant S_ .f32 0x7F800000#32
  let main_v10 : FVec F S36x256 .f32 := broadcastInDim S36x256 ![] bcast_S_S36x256 main_cst_2
  let main_v11 : IVec S36x256 1 := cmpf .olt main_v9 main_v10
  let main_c_3 : IVec S_ 1 := constantI S_ 1 1#1
  let main_v12 : IVec S_ 1 := (fun x v => Host.reduce IntOp.andi x v reducesTo_S36x256_S_d0_1 h_S_) main_v11 main_c_3
  let main_v13 : IVec S_ 1 := andi main_v8 main_v12
  let main_v14 : FVec F S36 .f32 := Host.absf main_arg3
  let main_cst_4 : FVec F S_ .f32 := constant S_ .f32 0x7F800000#32
  let main_v15 : FVec F S36 .f32 := broadcastInDim S36 ![] bcast_S_S36 main_cst_4
  let main_v16 : IVec S36 1 := cmpf .olt main_v14 main_v15
  fn_part1 (F := F) main_arg4 main_arg5 main_arg6 main_v13 main_v16
-- ==== Kernel.lean ====
abbrev S512x64 : Shape := ⟨2, ![512, 64]⟩
abbrev S512x8x200x64 : Shape := ⟨4, ![512, 8, 200, 64]⟩
abbrev S36x256 : Shape := ⟨2, ![36, 256]⟩
abbrev S36 : Shape := ⟨1, ![36]⟩
abbrev S_ : Shape := ⟨0, ![]⟩
abbrev S1x36 : Shape := ⟨2, ![1, 36]⟩
abbrev S1 : Shape := ⟨1, ![1]⟩
abbrev S512x8x200x1 : Shape := ⟨4, ![512, 8, 200, 1]⟩
abbrev S512x8x200 : Shape := ⟨3, ![512, 8, 200]⟩
abbrev S8x512x200 : Shape := ⟨3, ![8, 512, 200]⟩
abbrev S256x36 : Shape := ⟨2, ![256, 36]⟩
abbrev S1x1 : Shape := ⟨2, ![1, 1]⟩
abbrev S8x512x64 : Shape := ⟨3, ![8, 512, 64]⟩
abbrev S32x64 : Shape := ⟨2, ![32, 64]⟩
abbrev S32x1x200x64 : Shape := ⟨4, ![32, 1, 200, 64]⟩
abbrev S1x32x200 : Shape := ⟨3, ![1, 32, 200]⟩
abbrev S1x32x64 : Shape := ⟨3, ![1, 32, 64]⟩
abbrev S32x200x64 : Shape := ⟨3, ![32, 200, 64]⟩
abbrev S32x200 : Shape := ⟨2, ![32, 200]⟩
abbrev S32x1x64 : Shape := ⟨3, ![32, 1, 64]⟩
abbrev S32x200x256 : Shape := ⟨3, ![32, 200, 256]⟩
abbrev S6400x256 : Shape := ⟨2, ![6400, 256]⟩
abbrev S6400x36 : Shape := ⟨2, ![6400, 36]⟩
abbrev S32x200x36 : Shape := ⟨3, ![32, 200, 36]⟩
abbrev S1x1x36 : Shape := ⟨3, ![1, 1, 36]⟩
abbrev S32 : Shape := ⟨1, ![32]⟩
abbrev S32x1 : Shape := ⟨2, ![32, 1]⟩
abbrev S32x200x1 : Shape := ⟨3, ![32, 200, 1]⟩
abbrev S512x8x64 : Shape := ⟨3, ![512, 8, 64]⟩

abbrev nBuf : Space → Nat
  | .hbm => 18
  | .vmem => 13
  | .smem => 0
  | _ => 0

abbrev bufTy : (tb : Table) → Fin (tcTables nBuf tb) → BufTy
  | .hbm, ⟨0, _⟩ => ⟨S512x64, .f32⟩
  | .hbm, ⟨1, _⟩ => ⟨S512x8x200x64, .f32⟩
  | .hbm, ⟨2, _⟩ => ⟨S36x256, .f32⟩
  | .hbm, ⟨3, _⟩ => ⟨S36, .f32⟩
  | .hbm, ⟨4, _⟩ => ⟨S_, .f32⟩
  | .hbm, ⟨5, _⟩ => ⟨S1x36, .f32⟩
  | .hbm, ⟨6, _⟩ => ⟨S1, .f32⟩
  | .hbm, ⟨7, _⟩ => ⟨S512x8x200x1, .i1⟩
  | .hbm, ⟨8, _⟩ => ⟨S512x8x200, .i1⟩
  | .hbm, ⟨9, _⟩ => ⟨S512x8x200, .i32⟩
  | .hbm, ⟨10, _⟩ => ⟨S8x512x200, .i32⟩
  | .hbm, ⟨11, _⟩ => ⟨S256x36, .f32⟩
  | .hbm, ⟨12, _⟩ => ⟨S256x36, .bf16⟩
  | .hbm, ⟨13, _⟩ => ⟨S1x36, .f32⟩
  | .hbm, ⟨14, _⟩ => ⟨S1x1, .f32⟩
  | .hbm, ⟨15, _⟩ => ⟨S1x1, .f32⟩
  | .hbm, ⟨16, _⟩ => ⟨S8x512x64, .f32⟩
  | .hbm, ⟨17, _⟩ => ⟨S512x8x64, .f32⟩
  | .local _ .vmem, ⟨0, _⟩ => ⟨S32x64, .f32⟩
  | .local _ .vmem, ⟨1, _⟩ => ⟨S32x64, .f32⟩
  | .local _ .vmem, ⟨2, _⟩ => ⟨S32x1x200x64, .f32⟩
  | .local _ .vmem, ⟨3, _⟩ => ⟨S32x1x200x64, .f32⟩
  | .local _ .vmem, ⟨4, _⟩ => ⟨S1x32x200, .i32⟩
  | .local _ .vmem, ⟨5, _⟩ => ⟨S1x32x200, .i32⟩
  | .local _ .vmem, ⟨6, _⟩ => ⟨S256x36, .bf16⟩
  | .local _ .vmem, ⟨7, _⟩ => ⟨S1x36, .f32⟩
  | .local _ .vmem, ⟨8, _⟩ => ⟨S1x36, .f32⟩
  | .local _ .vmem, ⟨9, _⟩ => ⟨S1x1, .f32⟩
  | .local _ .vmem, ⟨10, _⟩ => ⟨S1x1, .f32⟩
  | .local _ .vmem, ⟨11, _⟩ => ⟨S1x32x64, .f32⟩
  | .local _ .vmem, ⟨12, _⟩ => ⟨S1x32x64, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x1x200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x36 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x36 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x36 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x32x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S512x8x200x1_S512x8x200 : S512x8x200x1.ShapeCasts S512x8x200
  natLt_1_32 : 1 < 32
  transposes_S512x8x200_S8x512x200_1_0_2 : S512x8x200.Transposes [1, 0, 2] S8x512x200
  transposes_S36x256_S256x36_1_0 : S36x256.Transposes [1, 0] S256x36
  bitsLt_bf16_f32 : FTy.bits .bf16 < FTy.bits .f32
  shapeCasts_S36_S1x36 : S36.ShapeCasts S1x36
  shapeCasts_S1_S1x1 : S1.ShapeCasts S1x1
  shapeCasts_S_S1x1 : S_.ShapeCasts S1x1
  inb_S32x64_S32x64_0_0 : ∀ a, (![0, 0] : Fin 2 → Nat) a + S32x64.size a ≤ S32x64.size a
  h_S32x64 : 0 < S32x64.numel
  inb_S32x1x200x64_S32x1x200x64_0_0_0_0 : ∀ a, (![0, 0, 0, 0] : Fin 4 → Nat) a + S32x1x200x64.size a ≤ S32x1x200x64.size a
  h_S32x1x200x64 : 0 < S32x1x200x64.numel
  shapeCasts_S32x1x200x64_S32x200x64 : S32x1x200x64.ShapeCasts S32x200x64
  inb_S1x32x200_S1x32x200_0_0_0 : ∀ a, (![0, 0, 0] : Fin 3 → Nat) a + S1x32x200.size a ≤ S1x32x200.size a
  h_S1x32x200 : 0 < S1x32x200.numel
  shapeCasts_S1x32x200_S32x200 : S1x32x200.ShapeCasts S32x200
  shapeCasts_S32x64_S32x1x64 : S32x64.ShapeCasts S32x1x64
  shapeCasts_S32x1x64_S32x1x64 : S32x1x64.ShapeCasts S32x1x64
  broadcasts_S32x1x64_S32x200x64 : S32x1x64.Broadcasts S32x200x64
  concatenates_S32x200x64_S32x200x64_S32x200x64_S32x200x64_S32x200x256_d2 : Shape.Concatenates [S32x200x64, S32x200x64, S32x200x64, S32x200x64] S32x200x256 2
  shapeCasts_S32x200x256_S6400x256 : S32x200x256.ShapeCasts S6400x256
  inb_S256x36_S256x36_0_0 : ∀ a, (![0, 0] : Fin 2 → Nat) a + S256x36.size a ≤ S256x36.size a
  h_S256x36 : 0 < S256x36.numel
  shapeCasts_S256x36_S256x36 : S256x36.ShapeCasts S256x36
  inb_S1x36_S1x36_0_0 : ∀ a, (![0, 0] : Fin 2 → Nat) a + S1x36.size a ≤ S1x36.size a
  h_S1x36 : 0 < S1x36.numel
  shapeCasts_S1x36_S1x36 : S1x36.ShapeCasts S1x36
  broadcasts_S1x36_S6400x36 : S1x36.Broadcasts S6400x36
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S6400x36_S32x200x36 : S6400x36.ShapeCasts S32x200x36
  shapeCasts_S1x36_S1x1x36 : S1x36.ShapeCasts S1x1x36
  broadcasts_S1x1x36_S32x200x36 : S1x1x36.Broadcasts S32x200x36
  reduces_S32x200x36_S32x200 : S32x200x36.Reduces [2] S32x200
  reduces_S32x200_S32 : S32x200.Reduces [1] S32
  shapeCasts_S32_S32x1 : S32.ShapeCasts S32x1
  broadcasts_S32x1_S32x200 : S32x1.Broadcasts S32x200
  shapeCasts_S32x200_S32x200x1 : S32x200.ShapeCasts S32x200x1
  broadcasts_S32x200x1_S32x200x64 : S32x200x1.Broadcasts S32x200x64
  reduces_S32x200x64_S32x64 : S32x200x64.Reduces [1] S32x64
  inb_S1x32x64_S1x32x64_0_0_0 : ∀ a, (![0, 0, 0] : Fin 3 → Nat) a + S1x32x64.size a ≤ S1x32x64.size a
  h_S1x32x64 : 0 < S1x32x64.numel
  shapeCasts_S1x32x64_S32x64 : S1x32x64.ShapeCasts S32x64
  shapeCasts_S32x64_S1x32x64 : S32x64.ShapeCasts S1x32x64
  transposes_S8x512x64_S512x8x64_1_0_2 : S8x512x64.Transposes [1, 0, 2] S512x8x64
  dot_S6400x256_S256x36_S6400x36_1_0_0_1_n_n_wf : DotDims.WF S6400x256 S256x36 S6400x36 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64.size a ≤ S512x64.size a
  hwx0_0 : ∀ i : grid0.Coords, EltTy.bits .f32 = 32 ∨ (Rect.block (s := S512x64) S32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1x200x64.size a ≤ S512x8x200x64.size a
  hwx0_1 : ∀ i : grid0.Coords, EltTy.bits .f32 = 32 ∨ (Rect.block (s := S512x8x200x64) S32x1x200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x200.size a ≤ S8x512x200.size a
  hwx0_2 : ∀ i : grid0.Coords, EltTy.bits .i32 = 32 ∨ (Rect.block (s := S8x512x200) S1x32x200.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x36.size a ≤ S256x36.size a
  hwx0_3 : ∀ i : grid0.Coords, EltTy.bits .bf16 = 32 ∨ (Rect.block (s := S256x36) S256x36.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x36.size a ≤ S1x36.size a
  hwx0_4 : ∀ i : grid0.Coords, EltTy.bits .f32 = 32 ∨ (Rect.block (s := S1x36) S1x36.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x36.size a ≤ S1x36.size a
  hwx0_5 : ∀ i : grid0.Coords, EltTy.bits .f32 = 32 ∨ (Rect.block (s := S1x36) S1x36.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x64.size a ≤ S8x512x64.size a
  hwx0_8 : ∀ i : grid0.Coords, EltTy.bits .f32 = 32 ∨ (Rect.block (s := S8x512x64) S1x32x64.size (cc0_transform_8 i) (hinb0_8 i)).WholeWords (EltTy.packing .f32)

variable [Facts₀]

def dot_S6400x256_S256x36_S6400x36_1_0_0_1_n_n : DotDims S6400x256 S256x36 S6400x36 where
  lhsContracting := [1]
  rhsContracting := [0]
  lhsNonContracting := [0]
  rhsNonContracting := [1]
  lhsBatch := []
  rhsBatch := []
  wf := dot_S6400x256_S256x36_S6400x36_1_0_0_1_n_n_wf

abbrev win0_0 : Pipeline.Window sig grid0 :=
  Pipeline.Window.ofSpec (Memref.whole main_arg0) S32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1x200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x36.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x36.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x36.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x32x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x64 : Shape := ⟨2, ![512, 64]⟩
abbrev S512x8x200x64 : Shape := ⟨4, ![512, 8, 200, 64]⟩
abbrev S36x256 : Shape := ⟨2, ![36, 256]⟩
abbrev S36 : Shape := ⟨1, ![36]⟩
abbrev S_ : Shape := ⟨0, ![]⟩
abbrev S1x36 : Shape := ⟨2, ![1, 36]⟩
abbrev S1 : Shape := ⟨1, ![1]⟩
abbrev S512x8x200x1 : Shape := ⟨4, ![512, 8, 200, 1]⟩
abbrev S512x1x1x64 : Shape := ⟨4, ![512, 1, 1, 64]⟩
abbrev S512x8x200x256 : Shape := ⟨4, ![512, 8, 200, 256]⟩
abbrev S512x8x200x36 : Shape := ⟨4, ![512, 8, 200, 36]⟩
abbrev S1x1x1x36 : Shape := ⟨4, ![1, 1, 1, 36]⟩
abbrev S1x1x1x1 : Shape := ⟨4, ![1, 1, 1, 1]⟩
abbrev S512x8x1 : Shape := ⟨3, ![512, 8, 1]⟩
abbrev S512x8x1x1 : Shape := ⟨4, ![512, 8, 1, 1]⟩
abbrev S512x8x64 : Shape := ⟨3, ![512, 8, 64]⟩

abbrev nBuf : Space → Nat
  | .hbm => 48
  | .vmem => 0
  | .smem => 0
  | _ => 0

abbrev bufTy : (tb : Table) → Fin (tcTables nBuf tb) → BufTy
  | .hbm, ⟨0, _⟩ => ⟨S512x64, .f32⟩
  | .hbm, ⟨1, _⟩ => ⟨S512x8x200x64, .f32⟩
  | .hbm, ⟨2, _⟩ => ⟨S36x256, .f32⟩
  | .hbm, ⟨3, _⟩ => ⟨S36, .f32⟩
  | .hbm, ⟨4, _⟩ => ⟨S_, .f32⟩
  | .hbm, ⟨5, _⟩ => ⟨S1x36, .f32⟩
  | .hbm, ⟨6, _⟩ => ⟨S1, .f32⟩
  | .hbm, ⟨7, _⟩ => ⟨S512x8x200x1, .i1⟩
  | .hbm, ⟨8, _⟩ => ⟨S512x1x1x64, .f32⟩
  | .hbm, ⟨9, _⟩ => ⟨S512x8x200x64, .f32⟩
  | .hbm, ⟨10, _⟩ => ⟨S512x8x200x64, .f32⟩
  | .hbm, ⟨11, _⟩ => ⟨S512x8x200x64, .f32⟩
  | .hbm, ⟨12, _⟩ => ⟨S512x8x200x256, .f32⟩
  | .hbm, ⟨13, _⟩ => ⟨S512x8x200x36, .f32⟩
  | .hbm, ⟨14, _⟩ => ⟨S1x1x1x36, .f32⟩
  | .hbm, ⟨15, _⟩ => ⟨S512x8x200x36, .f32⟩
  | .hbm, ⟨16, _⟩ => ⟨S512x8x200x36, .f32⟩
  | .hbm, ⟨17, _⟩ => ⟨S_, .f32⟩
  | .hbm, ⟨18, _⟩ => ⟨S512x8x200x36, .f32⟩
  | .hbm, ⟨19, _⟩ => ⟨S512x8x200x36, .i1⟩
  | .hbm, ⟨20, _⟩ => ⟨S512x8x200x36, .f32⟩
  | .hbm, ⟨21, _⟩ => ⟨S512x8x200x36, .f32⟩
  | .hbm, ⟨22, _⟩ => ⟨S512x8x200x36, .f32⟩
  | .hbm, ⟨23, _⟩ => ⟨S512x8x200x1, .f32⟩
  | .hbm, ⟨24, _⟩ => ⟨S1x1x1x1, .f32⟩
  | .hbm, ⟨25, _⟩ => ⟨S512x8x200x1, .f32⟩
  | .hbm, ⟨26, _⟩ => ⟨S512x8x200x1, .f32⟩
  | .hbm, ⟨27, _⟩ => ⟨S_, .f32⟩
  | .hbm, ⟨28, _⟩ => ⟨S512x8x200x1, .f32⟩
  | .hbm, ⟨29, _⟩ => ⟨S512x8x200x1, .f32⟩
  | .hbm, ⟨30, _⟩ => ⟨S_, .f32⟩
  | .hbm, ⟨31, _⟩ => ⟨S512x8x1, .f32⟩
  | .hbm, ⟨32, _⟩ => ⟨S_, .f32⟩
  | .hbm, ⟨33, _⟩ => ⟨S512x8x1, .f32⟩
  | .hbm, ⟨34, _⟩ => ⟨S512x8x1, .f32⟩
  | .hbm, ⟨35, _⟩ => ⟨S512x8x1x1, .f32⟩
  | .hbm, ⟨36, _⟩ => ⟨S512x8x200x1, .f32⟩
  | .hbm, ⟨37, _⟩ => ⟨S512x8x200x1, .f32⟩
  | .hbm, ⟨38, _⟩ => ⟨S512x8x200x1, .f32⟩
  | .hbm, ⟨39, _⟩ => ⟨S_, .f32⟩
  | .hbm, ⟨40, _⟩ => ⟨S512x8x1, .f32⟩
  | .hbm, ⟨41, _⟩ => ⟨S512x8x1x1, .f32⟩
  | .hbm, ⟨42, _⟩ => ⟨S512x8x200x1, .f32⟩
  | .hbm, ⟨43, _⟩ => ⟨S512x8x200x1, .f32⟩
  | .hbm, ⟨44, _⟩ => ⟨S512x8x200x64, .f32⟩
  | .hbm, ⟨45, _⟩ => ⟨S512x8x200x64, .f32⟩
  | .hbm, ⟨46, _⟩ => ⟨S_, .f32⟩
  | .hbm, ⟨47, _⟩ => ⟨S512x8x64, .f32⟩
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_call1_v0 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  bcast_S512x64_S512x1x1x64_0_3 : S512x64.BroadcastsInDim S512x1x1x64 (![0, 3] : Fin 2 → Fin S512x1x1x64.rank)
  bcast_S512x1x1x64_S512x8x200x64_0_1_2_3 : S512x1x1x64.BroadcastsInDim S512x8x200x64 (![0, 1, 2, 3] : Fin 4 → Fin S512x8x200x64.rank)
  concatenates_S512x8x200x64_S512x8x200x64_S512x8x200x64_S512x8x200x64_S512x8x200x256_d3 : Shape.Concatenates [S512x8x200x64, S512x8x200x64, S512x8x200x64, S512x8x200x64] S512x8x200x256 3
  bcast_S36_S1x1x1x36_3 : S36.BroadcastsInDim S1x1x1x36 (![3] : Fin 1 → Fin S1x1x1x36.rank)
  bcast_S1x1x1x36_S512x8x200x36_0_1_2_3 : S1x1x1x36.BroadcastsInDim S512x8x200x36 (![0, 1, 2, 3] : Fin 4 → Fin S512x8x200x36.rank)
  bcast_S_S512x8x200x36 : S_.BroadcastsInDim S512x8x200x36 (![] : Fin 0 → Fin S512x8x200x36.rank)
  bcast_S1_S1x1x1x1_3 : S1.BroadcastsInDim S1x1x1x1 (![3] : Fin 1 → Fin S1x1x1x1.rank)
  bcast_S1x1x1x1_S512x8x200x1_0_1_2_3 : S1x1x1x1.BroadcastsInDim S512x8x200x1 (![0, 1, 2, 3] : Fin 4 → Fin S512x8x200x1.rank)
  bcast_S_S512x8x200x1 : S_.BroadcastsInDim S512x8x200x1 (![] : Fin 0 → Fin S512x8x200x1.rank)
  reducesTo_S512x8x200x1_S512x8x1_d2 : S512x8x200x1.ReducesTo [2] S512x8x1
  h_S_ : 0 < S_.numel
  bcast_S_S512x8x1 : S_.BroadcastsInDim S512x8x1 (![] : Fin 0 → Fin S512x8x1.rank)
  bcast_S512x8x1_S512x8x1x1_0_1_3 : S512x8x1.BroadcastsInDim S512x8x1x1 (![0, 1, 3] : Fin 3 → Fin S512x8x1x1.rank)
  bcast_S512x8x1x1_S512x8x200x1_0_1_2_3 : S512x8x1x1.BroadcastsInDim S512x8x200x1 (![0, 1, 2, 3] : Fin 4 → Fin S512x8x200x1.rank)
  bcast_S512x8x200x1_S512x8x200x64_0_1_2_3 : S512x8x200x1.BroadcastsInDim S512x8x200x64 (![0, 1, 2, 3] : Fin 4 → Fin S512x8x200x64.rank)
  reducesTo_S512x8x200x64_S512x8x64_d2 : S512x8x200x64.ReducesTo [2] S512x8x64
  dot_S512x8x200x256_S36x256_S512x8x200x36_3_1_012_0_n_n_wf : DotDims.WF S512x8x200x256 S36x256 S512x8x200x36 [3] [1] [0, 1, 2] [0] [] []
  dot_S512x8x200x36_S1x36_S512x8x200x1_3_1_012_0_n_n_wf : DotDims.WF S512x8x200x36 S1x36 S512x8x200x1 [3] [1] [0, 1, 2] [0] [] []

variable [Facts₀]

def dot_S512x8x200x256_S36x256_S512x8x200x36_3_1_012_0_n_n : DotDims S512x8x200x256 S36x256 S512x8x200x36 where
  lhsContracting := [3]
  rhsContracting := [1]
  lhsNonContracting := [0, 1, 2]
  rhsNonContracting := [0]
  lhsBatch := []
  rhsBatch := []
  wf := dot_S512x8x200x256_S36x256_S512x8x200x36_3_1_012_0_n_n_wf
def dot_S512x8x200x36_S1x36_S512x8x200x1_3_1_012_0_n_n : DotDims S512x8x200x36 S1x36 S512x8x200x1 where
  lhsContracting := [3]
  rhsContracting := [1]
  lhsNonContracting := [0, 1, 2]
  rhsNonContracting := [0]
  lhsBatch := []
  rhsBatch := []
  wf := dot_S512x8x200x36_S1x36_S512x8x200x1_3_1_012_0_n_n_wf

class Facts : Prop extends Facts₀ where

variable [Facts]
-- ==== Proof.Spec.lean ====
/-
  What both programs compute, stated once over plain index types, on the extended reals.

  For a batch row `b` and a window `w` the inputs are the query row `q` (64 numbers), the 200 key rows
  `kk s` (64 numbers each) and the 200 mask bits. Each key row gives a feature vector of 256 numbers,
  the four bands `q`, `k`, `q - k`, `q * k` laid end to end; a first linear layer (36 outputs, weights
  `W1`, bias `B1`), a leaky rectifier with slope `a` on the negative side, and a second linear layer
  (one output, weights `W2`, bias `b2`) turn it into one score. A masked position's score is replaced
  by the constant `-10000`. The 200 scores are normalised by a softmax — subtract the row's maximum,
  exponentiate, divide by the sum — and the result is the key rows' average under those weights.
-/
import Idealize.ShloMosaic.PureOps.Ideal.Laws
import Idealize.ShloMosaic.Lib.ValueIdx

noncomputable section

namespace Cert.Pooling

open Idealize.ShloMosaic Idealize.ShloMosaic.ValueIdx

/-- The feature vector of a query row and a key row: the bands `q`, `k`, `q - k`, `q * k`, 64 entries each. -/
def feat (q k : Fin 64 → EReal) (f : Fin 256) : EReal :=
  if h0 : f.val < 64 then q ⟨f.val, h0⟩
  else if h1 : f.val < 128 then k ⟨f.val - 64, by omega⟩
  else if h2 : f.val < 192 then q ⟨f.val - 128, by omega⟩ - k ⟨f.val - 128, by omega⟩
  else q ⟨f.val - 192, by have := f.isLt; omega⟩ * k ⟨f.val - 192, by have := f.isLt; omega⟩

/-- The first linear layer at output `o`: the features against row `o` of the weights, plus the bias. -/
def layer1 (W1 : Fin 36 → Fin 256 → EReal) (B1 : Fin 36 → EReal) (q k : Fin 64 → EReal) (o : Fin 36) : EReal :=
  (∑ f : Fin 256, feat q k f * W1 o f) + B1 o

/-- The leaky rectifier: `x` where `x ≥ 0`, else `a * x`. -/
def leaky (a x : EReal) : EReal :=
  Scalar.select (Ideal.cmp .oge x (Ideal.ofBits .f32 0x00000000#32)) x (a * x)

/-- The score of one key row: the rectified hidden layer against the second layer's weights, plus its bias. -/
def score (W1 : Fin 36 → Fin 256 → EReal) (B1 : Fin 36 → EReal) (a : EReal) (W2 : Fin 36 → EReal) (b2 : EReal)
    (q k : Fin 64 → EReal) : EReal :=
  (∑ o : Fin 36, leaky a (layer1 W1 B1 q k o) * W2 o) + b2

/-- A masked position's score is the constant `-10000` (the word `0xC61C4000`). -/
def masked (bit : BitVec 1) (x : EReal) : EReal :=
  Scalar.select bit (Ideal.ofBits .f32 0xC61C4000#32) x

/-- The largest of the 200 scores, folded from `-∞` (the word `0xFF800000`). -/
def rowMax (x : Fin 200 → EReal) : EReal :=
  (Finset.univ : Finset (Fin 200)).fold max (Ideal.ofBits .f32 0xFF800000#32) x

/-- The exponential of a score less the row's maximum. -/
def expo (x : Fin 200 → EReal) (s : Fin 200) : EReal := Ideal.exp (x s - rowMax x)

/-- The softmax weight of position `s`. -/
def weight (x : Fin 200 → EReal) (s : Fin 200) : EReal := Ideal.div (expo x s) (∑ s' : Fin 200, expo x s')

/-- The key rows averaged under the softmax weights, at hidden coordinate `h`. -/
def pooled (kk : Fin 200 → Fin 64 → EReal) (x : Fin 200 → EReal) (h : Fin 64) : EReal :=
  ∑ s : Fin 200, kk s h * weight x s

/-- The 200 masked scores of batch row `b`, window `w`, from the whole argument arrays. -/
def scores (Q : (⟨2, ![512, 64]⟩ : Shape).Idx → EReal) (K : (⟨4, ![512, 8, 200, 64]⟩ : Shape).Idx → EReal)
    (W1 : (⟨2, ![36, 256]⟩ : Shape).Idx → EReal) (B1 : (⟨1, ![36]⟩ : Shape).Idx → EReal) (A : (⟨0, ![]⟩ : Shape).Idx → EReal)
    (W2 : (⟨2, ![1, 36]⟩ : Shape).Idx → EReal) (B2 : (⟨1, ![1]⟩ : Shape).Idx → EReal)
    (M : (⟨4, ![512, 8, 200, 1]⟩ : Shape).Idx → BitVec 1) (b : Fin 512) (w : Fin 8) (s : Fin 200) : EReal :=
  masked (M (ix4 b w s (0 : Fin 1)))
    (score (fun o f => W1 (ix2 o f)) (fun o => B1 (ix1 o)) (A ix0) (fun o => W2 (ix2 (0 : Fin 1) o)) (B2 (ix1 (0 : Fin 1)))
      (fun h => Q (ix2 b h)) (fun h => K (ix4 b w s h)))

/-- THE RESULT: at `(b, w, h)` the pooled key rows of batch row `b`, window `w`. -/
def G (Q : (⟨2, ![512, 64]⟩ : Shape).Idx → EReal) (K : (⟨4, ![512, 8, 200, 64]⟩ : Shape).Idx → EReal)
    (W1 : (⟨2, ![36, 256]⟩ : Shape).Idx → EReal) (B1 : (⟨1, ![36]⟩ : Shape).Idx → EReal) (A : (⟨0, ![]⟩ : Shape).Idx → EReal)
    (W2 : (⟨2, ![1, 36]⟩ : Shape).Idx → EReal) (B2 : (⟨1, ![1]⟩ : Shape).Idx → EReal)
    (M : (⟨4, ![512, 8, 200, 1]⟩ : Shape).Idx → BitVec 1) : (⟨3, ![512, 8, 64]⟩ : Shape).Idx → EReal :=
  fun i => pooled (fun s h => K (ix4 (i 0) (i 1) s h)) (scores Q K W1 B1 A W2 B2 M (i 0) (i 1)) (i 2)

/-- A fold of `max` from `c` is at least `c`, so taking the maximum with `c` once more changes nothing. -/
theorem max_fold_max {ι : Type} (s : Finset ι) (c : EReal) (x : ι → EReal) : max c (s.fold max c x) = s.fold max c x :=
  max_eq_right ((Finset.le_fold_max c).mpr (Or.inl le_rfl))

/-- A one-bit word widened to 32 bits differs from zero exactly when the bit is set. -/
theorem ne_zero_of_widened (bit : BitVec 1) : IntOp.cmpi .ne (bit.setWidth 32) 0#32 = bit := by
  revert bit; decide

end Cert.Pooling

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KernelBody.lean ====
/-
  The kernel's body at one grid point, read at explicit coordinates.

  A grid point holds 32 batch rows of one window. The body joins the four bands `q`, `k`, `q - k`,
  `q * k` into 256 features for each of the 32 × 200 (row, position) pairs, flattens the pairs into
  6400 rows, multiplies by the transposed first-layer weights, adds the bias, applies the leaky
  rectifier, un-flattens, and sums against the second layer's weights: the position's score before
  its bias. The rest of the body adds that bias, masks, takes the softmax over the 200 positions of a
  row and sums the key rows under the weights.
-/
import proofs.«416903_j3925600108827_3_alg».proof.Proof.Gen.KernelIdeal.Skeleton
import proofs.«416903_j3925600108827_3_alg».proof.Proof.Spec
import proofs.«416903_j3925600108827_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Cert.Pooling Idealize.ShloMosaic Idealize.ShloMosaic.TcCoe
  Idealize.ShloMosaic.ValueIdx Idealize.ShloMosaic.Keepdims

/-- The flattened row of batch row `r`, position `s`. -/
abbrev flat (r : Fin 32) (s : Fin 200) : Fin 6400 := ⟨r.val * 200 + s.val, by have := r.isLt; have := s.isLt; omega⟩

/-- The query block, viewed with a unit position axis and broadcast over the 200 positions, reads the query row. -/
theorem qband_at (v0 : FVec Ideal S32x64 .f32) (r : Fin 32) (s : Fin 200) (g : Fin 64) :
    broadcastTo S32x200x64 (shapeCast S32x1x64 (shapeCast S32x1x64 (truncf .bf16 v0 bitsLt_bf16_f32) shapeCasts_S32x64_S32x1x64)
      shapeCasts_S32x1x64_S32x1x64) broadcasts_S32x1x64_S32x200x64 (ix3 r s g) = v0 (ix2 r g) := by
  refine (broadcastTo_apply _ broadcasts_S32x1x64_S32x200x64 (ix3 r s g) (ix3 r (0 : Fin 1) g) (fun a => ?_)).trans ?_
  · match a with
    | ⟨0, _⟩ => show r.val = if (32 : Nat) = 1 then 0 else r.val; rw [if_neg (by decide)]
    | ⟨1, _⟩ => show 0 = if (1 : Nat) = 1 then 0 else s.val; rw [if_pos rfl]
    | ⟨2, _⟩ => show g.val = if (64 : Nat) = 1 then 0 else g.val; rw [if_neg (by decide)]
  · rw [shapeCast_self]
    refine (shapeCast_apply _ shapeCasts_S32x64_S32x1x64 (ix3 r (0 : Fin 1) g) (ix2 r g) ?_).trans rfl
    rw [Shape.rowMajor_val_two, Shape.rowMajor_val_three]
    show r.val * 64 + g.val = (r.val * 1 + 0) * 64 + g.val
    omega

/-- The key block with its unit window axis dropped reads the key block at window coordinate 0. -/
theorem kband_at (v2 : FVec Ideal S32x1x200x64 .f32) (r : Fin 32) (s : Fin 200) (g : Fin 64) :
    shapeCast S32x200x64 v2 shapeCasts_S32x1x200x64_S32x200x64 (ix3 r s g) = v2 (ix4 r (0 : Fin 1) s g) := by
  refine shapeCast_apply _ shapeCasts_S32x1x200x64_S32x200x64 (ix3 r s g) (ix4 r (0 : Fin 1) s g) ?_
  rw [Shape.rowMajor_val_four, Shape.rowMajor_val_three]
  show ((r.val * 1 + 0) * 200 + s.val) * 64 + g.val = (r.val * 200 + s.val) * 64 + g.val
  omega

/-- Off the joined axis a band's index and the feature index have the same coordinates. -/
theorem off_axis (r : Fin 32) (s : Fin 200) (g : Fin 64) (f : Fin 256)
    (c : Fin S32x200x64.rank) (hc : c.cast (rfl : S32x200x64.rank = S32x200x256.rank) ≠ (2 : Fin S32x200x256.rank)) :
    ((ix3 r s g : S32x200x64.Idx) c).val = ((ix3 r s f : S32x200x256.Idx) (c.cast rfl)).val := by
  match c, hc with
  | ⟨0, _⟩, _ => rfl
  | ⟨1, _⟩, _ => rfl
  | ⟨2, _⟩, hc => exact absurd (Fin.ext rfl) hc

/-- The four bands joined along the last axis, read at feature `f`: the band that holds `f`. -/
theorem bands_at (q4 k4 : FVec Ideal S32x200x64 .bf16) (r : Fin 32) (s : Fin 200) (f : Fin 256) :
    concatenate S32x200x256 2 [⟨S32x200x64, q4⟩, ⟨S32x200x64, k4⟩, ⟨S32x200x64, subf q4 k4⟩, ⟨S32x200x64, mulf q4 k4⟩] concatenates_S32x200x64_S32x200x64_S32x200x64_S32x200x64_S32x200x256_d2 (ix3 r s f)
      = feat (fun h => q4 (ix3 r s h)) (fun h => k4 (ix3 r s h)) f := by
  have hf := f.isLt
  unfold feat
  by_cases h0 : f.val < 64
  · rw [dif_pos h0]
    exact concatenate_apply_piece (2 : Fin S32x200x256.rank) [⟨S32x200x64, q4⟩, ⟨S32x200x64, k4⟩, ⟨S32x200x64, subf q4 k4⟩, ⟨S32x200x64, mulf q4 k4⟩] concatenates_S32x200x64_S32x200x64_S32x200x64_S32x200x64_S32x200x256_d2 (ix3 r s f) 0 (by show (0 : Nat) < 4; omega) S32x200x64 _ rfl rfl 0 (by rfl)
      (ix3 r s ⟨f.val, h0⟩) (off_axis r s _ f) (by show 0 + f.val = f.val; omega)
  · rw [dif_neg h0]
    by_cases h1 : f.val < 128
    · rw [dif_pos h1]
      exact concatenate_apply_piece (2 : Fin S32x200x256.rank) [⟨S32x200x64, q4⟩, ⟨S32x200x64, k4⟩, ⟨S32x200x64, subf q4 k4⟩, ⟨S32x200x64, mulf q4 k4⟩] concatenates_S32x200x64_S32x200x64_S32x200x64_S32x200x64_S32x200x256_d2 (ix3 r s f) 1 (by show (1 : Nat) < 4; omega) S32x200x64 _ rfl rfl 64 (by rfl)
        (ix3 r s ⟨f.val - 64, by omega⟩) (off_axis r s _ f) (by show 64 + (f.val - 64) = f.val; omega)
    · rw [dif_neg h1]
      by_cases h2 : f.val < 192
      · rw [dif_pos h2]
        exact concatenate_apply_piece (2 : Fin S32x200x256.rank) [⟨S32x200x64, q4⟩, ⟨S32x200x64, k4⟩, ⟨S32x200x64, subf q4 k4⟩, ⟨S32x200x64, mulf q4 k4⟩] concatenates_S32x200x64_S32x200x64_S32x200x64_S32x200x64_S32x200x256_d2 (ix3 r s f) 2 (by show (2 : Nat) < 4; omega) S32x200x64 _ rfl rfl 128 (by rfl)
          (ix3 r s ⟨f.val - 128, by omega⟩) (off_axis r s _ f) (by show 128 + (f.val - 128) = f.val; omega)
      · rw [dif_neg h2]
        exact concatenate_apply_piece (2 : Fin S32x200x256.rank) [⟨S32x200x64, q4⟩, ⟨S32x200x64, k4⟩, ⟨S32x200x64, subf q4 k4⟩, ⟨S32x200x64, mulf q4 k4⟩] concatenates_S32x200x64_S32x200x64_S32x200x64_S32x200x64_S32x200x256_d2 (ix3 r s f) 3 (by show (3 : Nat) < 4; omega) S32x200x64 _ rfl rfl 192 (by rfl)
          (ix3 r s ⟨f.val - 192, by omega⟩) (off_axis r s _ f) (by show 192 + (f.val - 192) = f.val; omega)

/-! ## The product with the first layer's weights -/

theorem lhs_dot_0 (i : S6400x36.Idx) (q : dot_S6400x256_S256x36_S6400x36_1_0_0_1_n_n.contr.Idx) :
    (dot_S6400x256_S256x36_S6400x36_1_0_0_1_n_n.lhsIdx i q 0).val = (i 0).val := by
  unfold DotDims.lhsIdx
  rw [dif_neg (show ¬(0 : Fin S6400x256.rank) ∈ dot_S6400x256_S256x36_S6400x36_1_0_0_1_n_n.lhsBatch by decide),
    dif_pos (show (0 : Fin S6400x256.rank) ∈ dot_S6400x256_S256x36_S6400x36_1_0_0_1_n_n.lhsNonContracting by decide)]
  rfl
theorem lhs_dot_1 (i : S6400x36.Idx) (q : dot_S6400x256_S256x36_S6400x36_1_0_0_1_n_n.contr.Idx) :
    (dot_S6400x256_S256x36_S6400x36_1_0_0_1_n_n.lhsIdx i q 1).val = (q ⟨0, by decide⟩).val :=
  dot_S6400x256_S256x36_S6400x36_1_0_0_1_n_n.lhsIdx_val_of_single rfl i q
theorem rhs_dot_0 (i : S6400x36.Idx) (q : dot_S6400x256_S256x36_S6400x36_1_0_0_1_n_n.contr.Idx) :
    (dot_S6400x256_S256x36_S6400x36_1_0_0_1_n_n.rhsIdx i q 0).val = (q ⟨0, by decide⟩).val :=
  dot_S6400x256_S256x36_S6400x36_1_0_0_1_n_n.rhsIdx_val_of_single rfl i q
theorem rhs_dot_1 (i : S6400x36.Idx) (q : dot_S6400x256_S256x36_S6400x36_1_0_0_1_n_n.contr.Idx) :
    (dot_S6400x256_S256x36_S6400x36_1_0_0_1_n_n.rhsIdx i q 1).val = (i 1).val := by
  unfold DotDims.rhsIdx
  rw [dif_neg (show ¬(1 : Fin S256x36.rank) ∈ dot_S6400x256_S256x36_S6400x36_1_0_0_1_n_n.rhsBatch by decide),
    dif_pos (show (1 : Fin S256x36.rank) ∈ dot_S6400x256_S256x36_S6400x36_1_0_0_1_n_n.rhsNonContracting by decide)]
  rfl

/-- The matrix product into a zero accumulator, at row `i` and column `o`: the sum over the 256 features. -/
theorem matmul_at (L : FVec Ideal S6400x256 .bf16) (R : FVec Ideal S256x36 .bf16) (i : Fin 6400) (o : Fin 36) :
    matmul dot_S6400x256_S256x36_S6400x36_1_0_0_1_n_n none L R (constant S6400x36 .f32 0x00000000#32) (ix2 i o)
      = ∑ f : Fin 256, L (ix2 i f) * R (ix2 f o) := by
  simp only [matmul]
  rw [Ideal.matmul_constant_zero_apply, ← Equiv.sum_comp (ValueIdx.contrEquiv1 dot_S6400x256_S256x36_S6400x36_1_0_0_1_n_n 256 rfl rfl).symm]
  refine Finset.sum_congr rfl fun k _ => ?_
  have hk := ValueIdx.contrEquiv1_symm_val dot_S6400x256_S256x36_S6400x36_1_0_0_1_n_n 256 rfl rfl k
  have el : dot_S6400x256_S256x36_S6400x36_1_0_0_1_n_n.lhsIdx (ix2 i o) ((ValueIdx.contrEquiv1 dot_S6400x256_S256x36_S6400x36_1_0_0_1_n_n 256 rfl rfl).symm k) = ix2 i k := funext fun a => Fin.ext (by
    match a with
    | ⟨0, _⟩ => exact lhs_dot_0 _ _
    | ⟨1, _⟩ => exact (lhs_dot_1 _ _).trans hk)
  have er : dot_S6400x256_S256x36_S6400x36_1_0_0_1_n_n.rhsIdx (ix2 i o) ((ValueIdx.contrEquiv1 dot_S6400x256_S256x36_S6400x36_1_0_0_1_n_n 256 rfl rfl).symm k) = ix2 k o := funext fun a => Fin.ext (by
    match a with
    | ⟨0, _⟩ => exact (rhs_dot_0 _ _).trans hk
    | ⟨1, _⟩ => exact rhs_dot_1 _ _)
  rw [el, er]

/-! ## The first layer, the rectifier and the second layer's sum -/

/-- The first layer's bias, a single row broadcast over the 6400 rows. -/
theorem bias_at (v17 : FVec Ideal S1x36 .f32) (i : Fin 6400) (o : Fin 36) :
    broadcastTo S6400x36 (shapeCast S1x36 v17 shapeCasts_S1x36_S1x36) broadcasts_S1x36_S6400x36 (ix2 i o) = v17 (ix2 (0 : Fin 1) o) := by
  rw [shapeCast_self]
  exact broadcastTo_1b_ab_apply v17 broadcasts_S1x36_S6400x36 i o

/-- The (row, position) pairs flattened into 6400 rows: row `200 r + s` is the pair `(r, s)`. -/
theorem flat_at (X : FVec Ideal S32x200x256 .bf16) (r : Fin 32) (s : Fin 200) (f : Fin 256) :
    shapeCast S6400x256 X shapeCasts_S32x200x256_S6400x256 (ix2 (flat r s) f) = X (ix3 r s f) := by
  refine shapeCast_apply _ shapeCasts_S32x200x256_S6400x256 (ix2 (flat r s) f) (ix3 r s f) ?_
  rw [Shape.rowMajor_val_three, Shape.rowMajor_val_two]
  rfl

/-- And back: the pair `(r, s)` of the un-flattened array is row `200 r + s`. -/
theorem unflat_at (H : FVec Ideal S6400x36 .f32) (r : Fin 32) (s : Fin 200) (o : Fin 36) :
    shapeCast S32x200x36 H shapeCasts_S6400x36_S32x200x36 (ix3 r s o) = H (ix2 (flat r s) o) := by
  refine shapeCast_apply _ shapeCasts_S6400x36_S32x200x36 (ix3 r s o) (ix2 (flat r s) o) ?_
  rw [Shape.rowMajor_val_three, Shape.rowMajor_val_two]
  rfl

/-- The second layer's weights, one row broadcast over rows and positions. -/
theorem w2_at (v29 : FVec Ideal S1x36 .f32) (r : Fin 32) (s : Fin 200) (o : Fin 36) :
    broadcastTo S32x200x36 (shapeCast S1x1x36 v29 shapeCasts_S1x36_S1x1x36) broadcasts_S1x1x36_S32x200x36 (ix3 r s o)
      = v29 (ix2 (0 : Fin 1) o) := by
  refine (broadcastTo_apply _ broadcasts_S1x1x36_S32x200x36 (ix3 r s o) (ix3 (0 : Fin 1) (0 : Fin 1) o) (fun a => ?_)).trans ?_
  · match a with
    | ⟨0, _⟩ => show 0 = if (1 : Nat) = 1 then 0 else r.val; rw [if_pos rfl]
    | ⟨1, _⟩ => show 0 = if (1 : Nat) = 1 then 0 else s.val; rw [if_pos rfl]
    | ⟨2, _⟩ => show o.val = if (36 : Nat) = 1 then 0 else o.val; rw [if_neg (by decide)]
  · exact shapeCast_ab_1ab_apply v29 shapeCasts_S1x36_S1x1x36 (0 : Fin 1) (0 : Fin 1) o

/-- A sum over the last axis of a `[32, 200, 36]` array, from the zero accumulator. -/
theorem sum36_at (X : FVec Ideal S32x200x36 .f32) (r : Fin 32) (s : Fin 200) :
    multiReduction .add [2] S32x200 X 0x00000000#32 reduces_S32x200x36_S32x200 (.inl rfl) rfl (ix2 r s) = ∑ o : Fin 36, X (ix3 r s o) := by
  refine (Ideal.multiReduction_add_single X _ reduces_S32x200x36_S32x200 (.inl rfl) rfl (ix2 r s)).trans ?_
  refine Finset.sum_congr rfl fun o _ => congrArg X (funext fun ax => Fin.ext ?_)
  rw [Shape.Reduces.lift_val]
  match ax with
  | ⟨0, _⟩ => rfl
  | ⟨1, _⟩ => rfl
  | ⟨2, _⟩ => rfl

/-- The slope, the one entry of its `[1, 1]` block. -/
theorem slope_at (a11 : FVec Ideal S1x1 .f32) : extractAt ![0, 0] a11 inpos_S1x1_p0_0 = a11 (ix2 (0 : Fin 1) (0 : Fin 1)) :=
  congrArg a11 (funext fun a => Fin.ext (by match a with | ⟨0, _⟩ => rfl | ⟨1, _⟩ => rfl))

/-- The leaky rectifier, entry by entry. -/
theorem leaky_apply (H : FVec Ideal S6400x36 .f32) (a11 : FVec Ideal S1x1 .f32) (i : S6400x36.Idx) :
    select (cmpf .oge H (broadcast S6400x36 (Scalar.ofBits .f32 0x00000000#32))) H
        (mulf (broadcast S6400x36 (extractAt ![0, 0] a11 inpos_S1x1_p0_0)) H) i
      = leaky (a11 (ix2 (0 : Fin 1) (0 : Fin 1))) (H i) := by
  rw [← slope_at a11]; rfl

/-- The first layer at flattened row `200 r + s`, hidden unit `o`, over any two bands `q4`, `k4`. -/
theorem layer1_at (q4 k4 : FVec Ideal S32x200x64 .bf16) (v14 : FVec Ideal S256x36 .bf16) (v17 : FVec Ideal S1x36 .f32)
    (r : Fin 32) (s : Fin 200) (o : Fin 36) :
    addf (matmul dot_S6400x256_S256x36_S6400x36_1_0_0_1_n_n none
          (shapeCast S6400x256 (concatenate S32x200x256 2 [⟨S32x200x64, q4⟩, ⟨S32x200x64, k4⟩, ⟨S32x200x64, subf q4 k4⟩, ⟨S32x200x64, mulf q4 k4⟩]
            concatenates_S32x200x64_S32x200x64_S32x200x64_S32x200x64_S32x200x256_d2) shapeCasts_S32x200x256_S6400x256)
          (shapeCast S256x36 v14 shapeCasts_S256x36_S256x36) (constant S6400x36 .f32 0x00000000#32))
        (broadcastTo S6400x36 (shapeCast S1x36 v17 shapeCasts_S1x36_S1x36) broadcasts_S1x36_S6400x36) (ix2 (flat r s) o)
      = layer1 (fun o f => v14 (ix2 f o)) (fun o => v17 (ix2 (0 : Fin 1) o)) (fun h => q4 (ix3 r s h)) (fun h => k4 (ix3 r s h)) o := by
  unfold layer1
  refine congrArg₂ (· + ·) ((matmul_at _ _ (flat r s) o).trans (Finset.sum_congr rfl fun f _ => ?_)) (bias_at v17 (flat r s) o)
  rw [flat_at, bands_at, shapeCast_self]

/-- THE SCORE BEFORE ITS BIAS, at batch row `r` and position `s` of the block. -/
theorem pay4_at (v0 : FVec Ideal S32x64 .f32) (v2 : FVec Ideal S32x1x200x64 .f32) (v14 : FVec Ideal S256x36 .bf16)
    (v17 : FVec Ideal S1x36 .f32) (v21 : FVec Ideal S1x1 .f32) (v29 : FVec Ideal S1x36 .f32) (r : Fin 32) (s : Fin 200) :
    k0_pay4 (F := Ideal) v0 v2 v14 v17 v21 v29 (ix2 r s)
      = ∑ o : Fin 36, leaky (v21 (ix2 (0 : Fin 1) (0 : Fin 1)))
          (layer1 (fun o f => v14 (ix2 f o)) (fun o => v17 (ix2 (0 : Fin 1) o)) (fun h => v0 (ix2 r h)) (fun h => v2 (ix4 r (0 : Fin 1) s h)) o)
          * v29 (ix2 (0 : Fin 1) o) := by
  unfold k0_pay4 k0_pay2
  refine (sum36_at _ r s).trans (Finset.sum_congr rfl fun o _ => ?_)
  refine congrArg₂ (· * ·) ((unflat_at _ r s o).trans ((leaky_apply _ v21 _).trans ?_)) (w2_at v29 r s o)
  refine congrArg (leaky _) ((layer1_at _ _ v14 v17 r s o).trans ?_)
  refine congrArg₂ (fun q k => layer1 _ _ q k o) (funext fun h => qband_at v0 r s h) (funext fun h => kband_at v2 r s h)

/-! ## The mask, the softmax over the positions and the weighted sum of the key rows -/

/-- The exponentials of a `[32, 200]` block of scores, each less its row's maximum. -/
def expBlock (X : FVec Ideal S32x200 .f32) : FVec Ideal S32x200 .f32 :=
  exp (subf X (broadcastTo S32x200 (shapeCast S32x1 (multiReduction .maximumf [1] S32 X 0xFF800000#32 reduces_S32x200_S32 (.inl rfl) rfl)
    shapeCasts_S32_S32x1) broadcasts_S32x1_S32x200))

/-- A row's maximum: the fold of `max` from `-∞` over the row. -/
theorem rowMax_at (X : FVec Ideal S32x200 .f32) (r : Fin 32) :
    multiReduction .maximumf [1] S32 X 0xFF800000#32 reduces_S32x200_S32 (.inl rfl) rfl (ix1 r) = rowMax (fun s => X (ix2 r s)) := by
  refine (Ideal.multiReduction_maximumf_single X _ reduces_S32x200_S32 (.inl rfl) rfl (ix1 r)).trans ?_
  unfold rowMax
  refine congrArg (Finset.fold max _ · Finset.univ) (funext fun s => congrArg X (funext fun ax => Fin.ext ?_))
  rw [Shape.Reduces.lift_val]
  match ax with
  | ⟨0, _⟩ => rfl
  | ⟨1, _⟩ => rfl

theorem expBlock_at (X : FVec Ideal S32x200 .f32) (r : Fin 32) (s : Fin 200) :
    expBlock X (ix2 r s) = expo (fun s => X (ix2 r s)) s := by
  unfold expBlock expo
  refine congrArg (fun m => Ideal.exp (X (ix2 r s) - m)) ?_
  refine (broadcastTo_a1_ab_apply _ broadcasts_S32x1_S32x200 r s).trans ?_
  refine (shapeCast_a_a1_apply _ shapeCasts_S32_S32x1 r (0 : Fin 1)).trans ?_
  exact rowMax_at X r

/-- The softmax weights of a `[32, 200]` block of scores. -/
def weightBlock (X : FVec Ideal S32x200 .f32) : FVec Ideal S32x200 .f32 :=
  divf (expBlock X) (broadcastTo S32x200 (shapeCast S32x1 (multiReduction .add [1] S32 (expBlock X) 0x00000000#32 reduces_S32x200_S32 (.inl rfl) rfl)
    shapeCasts_S32_S32x1) broadcasts_S32x1_S32x200)

theorem weightBlock_at (X : FVec Ideal S32x200 .f32) (r : Fin 32) (s : Fin 200) :
    weightBlock X (ix2 r s) = weight (fun s => X (ix2 r s)) s := by
  unfold weightBlock weight
  refine congrArg₂ Ideal.div (expBlock_at X r s) ?_
  refine (broadcastTo_a1_ab_apply _ broadcasts_S32x1_S32x200 r s).trans ?_
  refine (shapeCast_a_a1_apply _ shapeCasts_S32_S32x1 r (0 : Fin 1)).trans ?_
  refine (laneSum_apply (expBlock X) _ reduces_S32x200_S32 (.inl rfl) rfl r).trans ?_
  exact Finset.sum_congr rfl fun s' _ => expBlock_at X r s'

/-- The key rows of the block summed under the softmax weights, stored with a leading unit axis. -/
def poolBlock (v3 : FVec Ideal S32x200x64 .f32) (X : FVec Ideal S32x200 .f32) : FVec Ideal S1x32x64 .f32 :=
  shapeCast S1x32x64 (multiReduction .add [1] S32x64 (mulf v3 (broadcastTo S32x200x64 (shapeCast S32x200x1 (weightBlock X) shapeCasts_S32x200_S32x200x1)
    broadcasts_S32x200x1_S32x200x64)) 0x00000000#32 reduces_S32x200x64_S32x64 (.inl rfl) rfl) shapeCasts_S32x64_S1x32x64

/-- A sum over the middle axis of a `[32, 200, 64]` array, from the zero accumulator. -/
theorem sum200_at (Y : FVec Ideal S32x200x64 .f32) (r : Fin 32) (h : Fin 64) :
    multiReduction .add [1] S32x64 Y 0x00000000#32 reduces_S32x200x64_S32x64 (.inl rfl) rfl (ix2 r h) = ∑ s : Fin 200, Y (ix3 r s h) := by
  refine (Ideal.multiReduction_add_single Y _ reduces_S32x200x64_S32x64 (.inl rfl) rfl (ix2 r h)).trans ?_
  refine Finset.sum_congr rfl fun s _ => congrArg Y (funext fun ax => Fin.ext ?_)
  rw [Shape.Reduces.lift_val]
  match ax with
  | ⟨0, _⟩ => rfl
  | ⟨1, _⟩ => rfl
  | ⟨2, _⟩ => rfl

/-- A `[32, 200]` block of weights viewed with a unit last axis and broadcast along the 64 hidden coordinates. -/
theorem wcol_at (Wt : FVec Ideal S32x200 .f32) (r : Fin 32) (s : Fin 200) (h : Fin 64) :
    broadcastTo S32x200x64 (shapeCast S32x200x1 Wt shapeCasts_S32x200_S32x200x1) broadcasts_S32x200x1_S32x200x64 (ix3 r s h) = Wt (ix2 r s) := by
  refine (broadcastTo_apply _ broadcasts_S32x200x1_S32x200x64 (ix3 r s h) (ix3 r s (0 : Fin 1)) (fun a => ?_)).trans ?_
  · match a with
    | ⟨0, _⟩ => show r.val = if (32 : Nat) = 1 then 0 else r.val; rw [if_neg (by decide)]
    | ⟨1, _⟩ => show s.val = if (200 : Nat) = 1 then 0 else s.val; rw [if_neg (by decide)]
    | ⟨2, _⟩ => show 0 = if (1 : Nat) = 1 then 0 else h.val; rw [if_pos rfl]
  · refine shapeCast_apply _ shapeCasts_S32x200_S32x200x1 (ix3 r s (0 : Fin 1)) (ix2 r s) ?_
    rw [Shape.rowMajor_val_two, Shape.rowMajor_val_three]
    show r.val * 200 + s.val = (r.val * 200 + s.val) * 1 + 0
    omega

theorem poolBlock_at (v3 : FVec Ideal S32x200x64 .f32) (X : FVec Ideal S32x200 .f32) (u : Fin 1) (r : Fin 32) (h : Fin 64) :
    poolBlock v3 X (ix3 u r h) = pooled (fun s h => v3 (ix3 r s h)) (fun s => X (ix2 r s)) h := by
  unfold poolBlock pooled
  refine (shapeCast_ab_1ab_apply _ shapeCasts_S32x64_S1x32x64 u r h).trans ?_
  refine (sum200_at _ r h).trans (Finset.sum_congr rfl fun s _ => ?_)
  exact congrArg (v3 (ix3 r s h) * ·) ((wcol_at _ r s h).trans (weightBlock_at X r s))

/-- THE STORED BLOCK at `(u, r, h)`: the pooled key rows of batch row `r`, from the scores-before-bias `v33`, the
    second layer's bias `v35` and the widened mask words `v6`. -/
theorem pay1_at (v3 : FVec Ideal S32x200x64 .f32) (v6 : IVec S32x200 32) (v33 : FVec Ideal S32x200 .f32) (v35 : Ideal .f32)
    (u : Fin 1) (r : Fin 32) (h : Fin 64) :
    k0_pay1 (F := Ideal) v3 v6 v33 v35 (ix3 u r h)
      = pooled (fun s h => v3 (ix3 r s h))
          (fun s => Scalar.select (IntOp.cmpi .ne (v6 (ix2 r s)) 0#32) (Ideal.ofBits .f32 0xC61C4000#32) (v33 (ix2 r s) + v35)) h :=
  poolBlock_at v3 (select (cmpi .ne v6 (broadcast S32x200 0#32)) (broadcast S32x200 (Scalar.ofBits .f32 0xC61C4000#32))
    (addf v33 (broadcast S32x200 v35))) u r h

/-- The mask block with its unit window axis dropped. -/
theorem maskband_at (v5 : IVec S1x32x200 32) (r : Fin 32) (s : Fin 200) :
    k0_pay3 (F := Ideal) v5 (ix2 r s) = v5 (ix3 (0 : Fin 1) r s) :=
  shapeCast_1ab_ab_apply v5 shapeCasts_S1x32x200_S32x200 r s

/-- The second layer's bias, the one entry of its `[1, 1]` block. -/
theorem bias2_at (v34 : FVec Ideal S1x1 .f32) : k0_pay5 (F := Ideal) v34 = v34 (ix2 (0 : Fin 1) (0 : Fin 1)) := slope_at v34

end Cert.KernelIdeal.Body

end
-- ==== Proof.KernelValue.lean ====
/-
  The kernel's result array as one function of its arguments.

  The region's grid has 16 × 8 points; point `t` works on the 32 batch rows `32 (t / 8) … 32 (t / 8) + 31` of
  window `t % 8`. It reads those rows of the query, the matching rows of the key at that window, the matching
  mask words (the mask arrives widened to 32-bit words and with its window axis moved to the front), and the
  whole of the small arrays (the first layer's weights transposed, its bias as a row, the second layer's
  weights, its bias and the slope as `[1, 1]` arrays). It writes rows `32 (t / 8) …` of plane `t % 8` of a
  `[8, 512, 64]` array; the 128 blocks tile that array, and a last transpose on the host swaps its first two
  axes. Read at `(b, w, h)` the result is `Cert.Pooling.G` of the arguments.
-/
import proofs.«416903_j3925600108827_3_alg».proof.Proof.Gen.KernelIdeal.Frame
import proofs.«416903_j3925600108827_3_alg».proof.Proof.KernelBody
import Idealize.ShloMosaic.Lib.Pipeline.Value
import Idealize.ShloMosaic.Lib.StableHlo.Run
import Idealize.ShloMosaic.Lib.Tactic
import Idealize.ShloMosaic.Lib.ValueLayout

set_option maxRecDepth 16384

noncomputable section

namespace Cert.KernelIdeal.Hand

open Cert.KernelIdeal Cert.KernelIdeal.Gen Cert.KernelIdeal.Body Cert.Pooling Idealize.ShloMosaic Idealize.ShloMosaic.TcCoe
  Idealize.ShloMosaic.ValueIdx Idealize.SL.Sem
open Idealize.ShloMosaic.Pipeline (Dat)

variable (m : (ℓ : Loc nD τ sig) → Buf (Elt Ideal) ℓ) (ρ : Dev nD → PrngReg)

/-! ## The arguments, by name -/

abbrev argQ (c : Dev nD) : S512x64.Idx → Ideal .f32 := m ((c : Thread nD τ).loc main_arg0)
abbrev argK (c : Dev nD) : S512x8x200x64.Idx → Ideal .f32 := m ((c : Thread nD τ).loc main_arg1)
abbrev argW1 (c : Dev nD) : S36x256.Idx → Ideal .f32 := m ((c : Thread nD τ).loc main_arg2)
abbrev argB1 (c : Dev nD) : S36.Idx → Ideal .f32 := m ((c : Thread nD τ).loc main_arg3)
abbrev argA (c : Dev nD) : S_.Idx → Ideal .f32 := m ((c : Thread nD τ).loc main_arg4)
abbrev argW2 (c : Dev nD) : S1x36.Idx → Ideal .f32 := m ((c : Thread nD τ).loc main_arg5)
abbrev argB2 (c : Dev nD) : S1.Idx → Ideal .f32 := m ((c : Thread nD τ).loc main_arg6)
abbrev argM (c : Dev nD) : S512x8x200x1.Idx → BitVec 1 := m ((c : Thread nD τ).loc main_arg7)

/-- The result at `(b, w, h)`. -/
abbrev result (c : Dev nD) : S512x8x64.Idx → Ideal .f32 :=
  G (argQ m c) (argK m c) (argW1 m c) (argB1 m c) (argA m c) (argW2 m c) (argB2 m c) (argM m c)

/-- The same with the window axis first: what the region's own output array holds. -/
abbrev resultT (c : Dev nD) : S8x512x64.Idx → Ideal .f32 := fun i => result m c (ix3 (i 1) (i 0) (i 2))

/-! ## The arrays the region finds -/

/-- The mask as the region finds it: one 32-bit word per bit, window axis first. -/
theorem mask_at (c : Dev nD) (w : Fin 8) (b : Fin 512) (s : Fin 200) :
    (V m c main_v2 : S8x512x200.Idx → BitVec 32) (ix3 w b s) = (argM m c (ix4 b w s (0 : Fin 1))).setWidth 32 := by
  have e : (V m c main_v2 : S8x512x200.Idx → BitVec 32)
      = transpose S8x512x200 [1, 0, 2] (extui 32 (shapeCast S512x8x200 (argM m c) shapeCasts_S512x8x200x1_S512x8x200) natLt_1_32)
          transposes_S512x8x200_S8x512x200_1_0_2 := by
    show StableHlo.after hostOps0 (fun b => m (c, b)) (Proc.devRef .tc main_v2) = _
    after_results <;> rfl
  rw [e]
  refine (transpose_apply _ _ transposes_S512x8x200_S8x512x200_1_0_2 (ix3 w b s) (ix3 b w s)
    (fun a => match a with | ⟨0, _⟩ => rfl | ⟨1, _⟩ => rfl | ⟨2, _⟩ => rfl)).trans ?_
  refine congrArg (BitVec.setWidth 32) (shapeCast_apply _ shapeCasts_S512x8x200x1_S512x8x200 (ix3 b w s) (ix4 b w s (0 : Fin 1)) ?_)
  rw [Shape.rowMajor_val_four, Shape.rowMajor_val_three]
  show ((b.val * 8 + w.val) * 200 + s.val) * 1 + 0 = (b.val * 8 + w.val) * 200 + s.val
  omega

/-- The first layer's weights as the region finds them: transposed (the change of format is the identity). -/
theorem w1_at (c : Dev nD) (f : Fin 256) (o : Fin 36) :
    (V m c main_v4 : S256x36.Idx → Ideal .bf16) (ix2 f o) = argW1 m c (ix2 o f) := by
  have e : (V m c main_v4 : S256x36.Idx → Ideal .bf16)
      = truncf .bf16 (transpose S256x36 [1, 0] (argW1 m c) transposes_S36x256_S256x36_1_0) bitsLt_bf16_f32 := by
    show StableHlo.after hostOps0 (fun b => m (c, b)) (Proc.devRef .tc main_v4) = _
    after_results <;> rfl
  rw [e]
  exact transpose_ix2_apply (argW1 m c) transposes_S36x256_S256x36_1_0 f o

/-- The first layer's bias as a row. -/
theorem b1_at (c : Dev nD) (o : Fin 36) :
    (V m c main_v5 : S1x36.Idx → Ideal .f32) (ix2 (0 : Fin 1) o) = argB1 m c (ix1 o) := by
  have e : (V m c main_v5 : S1x36.Idx → Ideal .f32) = shapeCast S1x36 (argB1 m c) shapeCasts_S36_S1x36 := by
    show StableHlo.after hostOps0 (fun b => m (c, b)) (Proc.devRef .tc main_v5) = _
    after_results <;> rfl
  rw [e]
  exact shapeCast_a_1a_apply (argB1 m c) shapeCasts_S36_S1x36 (0 : Fin 1) o

/-- The second layer's bias as a `[1, 1]` array. -/
theorem b2_at (c : Dev nD) :
    (V m c main_v6 : S1x1.Idx → Ideal .f32) (ix2 (0 : Fin 1) (0 : Fin 1)) = argB2 m c (ix1 (0 : Fin 1)) := by
  have e : (V m c main_v6 : S1x1.Idx → Ideal .f32) = shapeCast S1x1 (argB2 m c) shapeCasts_S1_S1x1 := by
    show StableHlo.after hostOps0 (fun b => m (c, b)) (Proc.devRef .tc main_v6) = _
    after_results <;> rfl
  rw [e]
  exact shapeCast_a_1a_apply (argB2 m c) shapeCasts_S1_S1x1 (0 : Fin 1) (0 : Fin 1)

/-- The slope as a `[1, 1]` array. -/
theorem a_at (c : Dev nD) :
    (V m c main_v7 : S1x1.Idx → Ideal .f32) (ix2 (0 : Fin 1) (0 : Fin 1)) = argA m c ix0 := by
  have e : (V m c main_v7 : S1x1.Idx → Ideal .f32) = shapeCast S1x1 (argA m c) shapeCasts_S_S1x1 := by
    show StableHlo.after hostOps0 (fun b => m (c, b)) (Proc.devRef .tc main_v7) = _
    after_results <;> rfl
  rw [e]
  refine shapeCast_apply _ shapeCasts_S_S1x1 (ix2 (0 : Fin 1) (0 : Fin 1)) ix0 ?_
  rw [Shape.rowMajor_val_two]
  have h1 : (S_.rowMajor ix0).val < S_.numel := (S_.rowMajor ix0).isLt
  have h2 : S_.numel = 1 := rfl
  show (S_.rowMajor ix0).val = 0 * 1 + 0
  omega

/-! ## Where a grid point sits -/

theorem lt_N (t : Fin cfg0.N) : t.val < 128 := lt_of_lt_of_eq t.isLt N_0

/-- The batch row of row `r` of point `t`'s block. -/
abbrev brow (t : Fin cfg0.N) (r : Fin 32) : Fin 512 := ⟨t.val / 8 * 32 + r.val, by have := lt_N t; have := r.isLt; omega⟩
/-- The window of point `t`. -/
abbrev wcol (t : Fin cfg0.N) : Fin 8 := ⟨t.val % 8, Nat.mod_lt _ (by decide)⟩

/-- The printed index maps over the grid: the batch block is `t / 8`, the window `t % 8`, everything else `0`. -/
theorem idx_facts : ∀ t : Fin cfg0.N,
    win0_0.index t (0 : Fin 2) = t.val / 8 ∧ win0_0.index t (1 : Fin 2) = 0
    ∧ win0_1.index t (0 : Fin 4) = t.val / 8 ∧ win0_1.index t (1 : Fin 4) = t.val % 8 ∧ win0_1.index t (2 : Fin 4) = 0 ∧ win0_1.index t (3 : Fin 4) = 0
    ∧ win0_2.index t (0 : Fin 3) = t.val % 8 ∧ win0_2.index t (1 : Fin 3) = t.val / 8 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val % 8 ∧ win0_8.index t (1 : Fin 3) = t.val / 8 ∧ win0_8.index t (2 : Fin 3) = 0 :=
  (by decide +kernel : ∀ t : Fin grid0.N, _)

/-! ## The windows' blocks, over their literal types -/

abbrev qblk (c : Dev nD) (t : Fin cfg0.N) : FVec Ideal S32x64 .f32 := iblk m c 0 t
abbrev kblk (c : Dev nD) (t : Fin cfg0.N) : FVec Ideal S32x1x200x64 .f32 := iblk m c 1 t
abbrev mblk (c : Dev nD) (t : Fin cfg0.N) : IVec S1x32x200 32 := iblk m c 2 t
abbrev w1blk (c : Dev nD) (t : Fin cfg0.N) : FVec Ideal S256x36 .bf16 := iblk m c 3 t
abbrev b1blk (c : Dev nD) (t : Fin cfg0.N) : FVec Ideal S1x36 .f32 := iblk m c 4 t
abbrev w2blk (c : Dev nD) (t : Fin cfg0.N) : FVec Ideal S1x36 .f32 := iblk m c 5 t
abbrev b2blk (c : Dev nD) (t : Fin cfg0.N) : FVec Ideal S1x1 .f32 := iblk m c 6 t
abbrev ablk (c : Dev nD) (t : Fin cfg0.N) : FVec Ideal S1x1 .f32 := iblk m c 7 t

theorem qblk_at (c : Dev nD) (t : Fin cfg0.N) (r : Fin 32) (h : Fin 64) :
    qblk m c t (ix2 r h) = argQ m c (ix2 (brow t r) h) := by
  obtain ⟨e0, e1, -⟩ := idx_facts t
  show iblk m c 0 t (ix2 r h) = _
  unfold iblk
  rw [View.read_apply]
  refine (congrFun (V_main_arg0 m c) _).trans (congrArg (argQ m c) (funext fun a => Fin.ext ?_))
  match a with
  | ⟨0, _⟩ => show win0_0.index t (0 : Fin 2) * 32 + 1 * r.val = t.val / 8 * 32 + r.val; rw [e0]; omega
  | ⟨1, _⟩ => show win0_0.index t (1 : Fin 2) * 64 + 1 * h.val = h.val; rw [e1]; omega

theorem kblk_at (c : Dev nD) (t : Fin cfg0.N) (r : Fin 32) (s : Fin 200) (h : Fin 64) :
    kblk m c t (ix4 r (0 : Fin 1) s h) = argK m c (ix4 (brow t r) (wcol t) s h) := by
  obtain ⟨-, -, e0, e1, e2, e3, -⟩ := idx_facts t
  show iblk m c 1 t (ix4 r (0 : Fin 1) s h) = _
  unfold iblk
  rw [View.read_apply]
  refine (congrFun (V_main_arg1 m c) _).trans (congrArg (argK m c) (funext fun a => Fin.ext ?_))
  match a with
  | ⟨0, _⟩ => show win0_1.index t (0 : Fin 4) * 32 + 1 * r.val = t.val / 8 * 32 + r.val; rw [e0]; omega
  | ⟨1, _⟩ => show win0_1.index t (1 : Fin 4) * 1 + 1 * 0 = t.val % 8; rw [e1]; omega
  | ⟨2, _⟩ => show win0_1.index t (2 : Fin 4) * 200 + 1 * s.val = s.val; rw [e2]; omega
  | ⟨3, _⟩ => show win0_1.index t (3 : Fin 4) * 64 + 1 * h.val = h.val; rw [e3]; omega

theorem mblk_at (c : Dev nD) (t : Fin cfg0.N) (r : Fin 32) (s : Fin 200) :
    mblk m c t (ix3 (0 : Fin 1) r s) = (argM m c (ix4 (brow t r) (wcol t) s (0 : Fin 1))).setWidth 32 := by
  obtain ⟨-, -, -, -, -, -, e0, e1, e2, -⟩ := idx_facts t
  show iblk m c 2 t (ix3 (0 : Fin 1) r s) = _
  unfold iblk
  rw [View.read_apply]
  refine Eq.trans (congrArg (V m c main_v2 : S8x512x200.Idx → BitVec 32) (funext fun a => Fin.ext ?_)) (mask_at m c (wcol t) (brow t r) s)
  match a with
  | ⟨0, _⟩ => show win0_2.index t (0 : Fin 3) * 1 + 1 * 0 = t.val % 8; rw [e0]; omega
  | ⟨1, _⟩ => show win0_2.index t (1 : Fin 3) * 32 + 1 * r.val = t.val / 8 * 32 + r.val; rw [e1]; omega
  | ⟨2, _⟩ => show win0_2.index t (2 : Fin 3) * 200 + 1 * s.val = s.val; rw [e2]; omega

theorem w1blk_at (c : Dev nD) (t : Fin cfg0.N) (f : Fin 256) (o : Fin 36) :
    w1blk m c t (ix2 f o) = argW1 m c (ix2 o f) := by
  obtain ⟨-, -, -, -, -, -, -, -, -, e0, e1, -⟩ := idx_facts t
  show iblk m c 3 t (ix2 f o) = _
  unfold iblk
  rw [View.read_apply]
  refine Eq.trans (congrArg (V m c main_v4 : S256x36.Idx → Ideal .bf16) (funext fun a => Fin.ext ?_)) (w1_at m c f o)
  match a with
  | ⟨0, _⟩ => show win0_3.index t (0 : Fin 2) * 256 + 1 * f.val = f.val; rw [e0]; omega
  | ⟨1, _⟩ => show win0_3.index t (1 : Fin 2) * 36 + 1 * o.val = o.val; rw [e1]; omega

theorem b1blk_at (c : Dev nD) (t : Fin cfg0.N) (o : Fin 36) :
    b1blk m c t (ix2 (0 : Fin 1) o) = argB1 m c (ix1 o) := by
  obtain ⟨-, -, -, -, -, -, -, -, -, -, -, e0, e1, -⟩ := idx_facts t
  show iblk m c 4 t (ix2 (0 : Fin 1) o) = _
  unfold iblk
  rw [View.read_apply]
  refine Eq.trans (congrArg (V m c main_v5 : S1x36.Idx → Ideal .f32) (funext fun a => Fin.ext ?_)) (b1_at m c o)
  match a with
  | ⟨0, _⟩ => show win0_4.index t (0 : Fin 2) * 1 + 1 * 0 = 0; rw [e0]
  | ⟨1, _⟩ => show win0_4.index t (1 : Fin 2) * 36 + 1 * o.val = o.val; rw [e1]; omega

theorem w2blk_at (c : Dev nD) (t : Fin cfg0.N) (o : Fin 36) :
    w2blk m c t (ix2 (0 : Fin 1) o) = argW2 m c (ix2 (0 : Fin 1) o) := by
  obtain ⟨-, -, -, -, -, -, -, -, -, -, -, -, -, e0, e1, -⟩ := idx_facts t
  show iblk m c 5 t (ix2 (0 : Fin 1) o) = _
  unfold iblk
  rw [View.read_apply]
  refine (congrFun (V_main_arg5 m c) _).trans (congrArg (argW2 m c) (funext fun a => Fin.ext ?_))
  match a with
  | ⟨0, _⟩ => show win0_5.index t (0 : Fin 2) * 1 + 1 * 0 = 0; rw [e0]
  | ⟨1, _⟩ => show win0_5.index t (1 : Fin 2) * 36 + 1 * o.val = o.val; rw [e1]; omega

theorem b2blk_at (c : Dev nD) (t : Fin cfg0.N) :
    b2blk m c t (ix2 (0 : Fin 1) (0 : Fin 1)) = argB2 m c (ix1 (0 : Fin 1)) := by
  obtain ⟨-, -, -, -, -, -, -, -, -, -, -, -, -, -, -, e0, e1, -⟩ := idx_facts t
  show iblk m c 6 t (ix2 (0 : Fin 1) (0 : Fin 1)) = _
  unfold iblk
  rw [View.read_apply]
  refine Eq.trans (congrArg (V m c main_v6 : S1x1.Idx → Ideal .f32) (funext fun a => Fin.ext ?_)) (b2_at m c)
  match a with
  | ⟨0, _⟩ => show win0_6.index t (0 : Fin 2) * 1 + 1 * 0 = 0; rw [e0]
  | ⟨1, _⟩ => show win0_6.index t (1 : Fin 2) * 1 + 1 * 0 = 0; rw [e1]

theorem ablk_at (c : Dev nD) (t : Fin cfg0.N) :
    ablk m c t (ix2 (0 : Fin 1) (0 : Fin 1)) = argA m c ix0 := by
  obtain ⟨-, -, -, -, -, -, -, -, -, -, -, -, -, -, -, -, -, e0, e1, -⟩ := idx_facts t
  show iblk m c 7 t (ix2 (0 : Fin 1) (0 : Fin 1)) = _
  unfold iblk
  rw [View.read_apply]
  refine Eq.trans (congrArg (V m c main_v7 : S1x1.Idx → Ideal .f32) (funext fun a => Fin.ext ?_)) (a_at m c)
  match a with
  | ⟨0, _⟩ => show win0_7.index t (0 : Fin 2) * 1 + 1 * 0 = 0; rw [e0]
  | ⟨1, _⟩ => show win0_7.index t (1 : Fin 2) * 1 + 1 * 0 = 0; rw [e1]

/-! ## What a point stores -/

theorem score_congr {W1 W1' : Fin 36 → Fin 256 → EReal} {B1 B1' : Fin 36 → EReal} {a a' : EReal} {W2 W2' : Fin 36 → EReal}
    {b2 b2' : EReal} {q q' k k' : Fin 64 → EReal} (h1 : W1 = W1') (h2 : B1 = B1') (h3 : a = a') (h4 : W2 = W2') (h5 : b2 = b2')
    (h6 : q = q') (h7 : k = k') : score W1 B1 a W2 b2 q k = score W1' B1' a' W2' b2' q' k' := by
  rw [h1, h2, h3, h4, h5, h6, h7]

/-- THE BLOCK A POINT STORES, at row `r` and hidden coordinate `h`: the result at the point's batch row and window. -/
theorem stored_at (c : Dev nD) (t : Fin cfg0.N) (u : Fin 1) (r : Fin 32) (h : Fin 64) :
    k0_pay1 (F := Ideal) (k0_pay2 (kblk m c t)) (k0_pay3 (F := Ideal) (mblk m c t))
        (k0_pay4 (qblk m c t) (kblk m c t) (w1blk m c t) (b1blk m c t) (ablk m c t) (w2blk m c t)) (k0_pay5 (b2blk m c t)) (ix3 u r h)
      = result m c (ix3 (brow t r) (wcol t) h) := by
  refine (pay1_at (k0_pay2 (kblk m c t)) (k0_pay3 (F := Ideal) (mblk m c t))
    (k0_pay4 (qblk m c t) (kblk m c t) (w1blk m c t) (b1blk m c t) (ablk m c t) (w2blk m c t)) (k0_pay5 (b2blk m c t)) u r h).trans ?_
  show pooled _ _ h = pooled _ _ h
  refine congrArg₂ (fun kk x => pooled kk x h) (funext fun s => funext fun g => ?_) (funext fun s => ?_)
  · exact (kband_at (kblk m c t) r s g).trans (kblk_at m c t r s g)
  · show _ = masked _ (score _ _ _ _ _ _ _)
    refine congrArg₂ (fun bit x => Scalar.select bit (Ideal.ofBits .f32 0xC61C4000#32) x) ?_ ?_
    · rw [maskband_at, mblk_at]
      exact ne_zero_of_widened _
    · refine (congrArg₂ (· + ·) (pay4_at (qblk m c t) (kblk m c t) (w1blk m c t) (b1blk m c t) (ablk m c t) (w2blk m c t) r s)
        ((bias2_at (b2blk m c t)).trans (b2blk_at m c t))).trans ?_
      refine (show _ = score (fun o f => w1blk m c t (ix2 f o)) (fun o => b1blk m c t (ix2 (0 : Fin 1) o)) (ablk m c t (ix2 (0 : Fin 1) (0 : Fin 1)))
        (fun o => w2blk m c t (ix2 (0 : Fin 1) o)) (argB2 m c (ix1 (0 : Fin 1))) (fun h => qblk m c t (ix2 r h))
        (fun h => kblk m c t (ix4 r (0 : Fin 1) s h)) from rfl).trans ?_
      exact score_congr (funext fun o => funext fun f => w1blk_at m c t f o) (funext fun o => b1blk_at m c t o) (ablk_at m c t)
        (funext fun o => w2blk_at m c t o) rfl (funext fun h => qblk_at m c t r h) (funext fun h => kblk_at m c t r s h)

/-- The same at any index of the stored block, against the index of the output array it lands on. -/
theorem stored_emb (c : Dev nD) (t : Fin cfg0.N) (j : S1x32x64.Idx) (i : S8x512x64.Idx)
    (h0 : (i 0).val = t.val % 8) (h1 : (i 1).val = t.val / 8 * 32 + (j 1).val) (h2 : (i 2).val = (j 2).val) :
    k0_pay1 (F := Ideal) (k0_pay2 (kblk m c t)) (k0_pay3 (F := Ideal) (mblk m c t))
        (k0_pay4 (qblk m c t) (kblk m c t) (w1blk m c t) (b1blk m c t) (ablk m c t) (w2blk m c t)) (k0_pay5 (b2blk m c t)) j
      = resultT m c i := by
  refine ((congrArg _ (eq_ix3 j)).trans (stored_at m c t (j 0) (j 1) (j 2))).trans ?_
  refine congrArg (result m c) (funext fun a => Fin.ext ?_)
  match a with
  | ⟨0, _⟩ => exact h1.symm
  | ⟨1, _⟩ => exact h0.symm
  | ⟨2, _⟩ => exact h2.symm

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- WHAT POINT `t` WRITES BACK is block `t` of the result with the window axis first. -/
theorem flushed_eq (c : Dev nD) (t : Fin cfg0.N) :
    (dats m 0 c).flushed 8 t = ((cfg0.win 8).blk t).view.read (Elt Ideal) (resultT m c) := by
  obtain ⟨-, -, -, -, -, -, -, -, -, -, -, -, -, -, -, -, -, -, -, e0, e1, e2⟩ := idx_facts t
  show (cfg0.win 8).cut (grid0.coords t) ((dats m 0 c).after 8 t) = _
  rw [after0_8]
  unfold out0_8
  rw [View.canon_unit_zero hz3]
  simp only [View.ld_unit_zero (S := S32x64) hz2, View.ld_unit_zero (S := S32x1x200x64) hz4, View.ld_unit_zero (S := S1x32x200) hz3,
    View.ld_unit_zero (S := S256x36) hz2, View.ld_unit_zero (S := S1x36) hz2, View.ld_unit_zero (S := S1x1) hz2]
  funext j
  refine stored_emb m c t j _ ?_ ?_ ?_
  · show win0_8.index t (0 : Fin 3) * 1 + 1 * (j 0).val = t.val % 8
    have hj : (j 0).val < 1 := (j 0).isLt
    rw [e0]; omega
  · show win0_8.index t (1 : Fin 3) * 32 + 1 * (j 1).val = t.val / 8 * 32 + (j 1).val
    rw [e1]; omega
  · show win0_8.index t (2 : Fin 3) * 64 + 1 * (j 2).val = (j 2).val
    rw [e2]; omega

/-- An index of the output array is in point `t`'s block iff each coordinate is in the block's range on its axis. -/
theorem mem_blk (t : Fin cfg0.N) (i : S8x512x64.Idx) :
    i ∈ ((cfg0.win 8).blk t).view.set
      ↔ ∀ a : Fin 3, win0_8.index t a * S1x32x64.size a ≤ (i a).val ∧ (i a).val < win0_8.index t a * S1x32x64.size a + S1x32x64.size a := by
  show i ∈ ((View.whole main_v8).slice (win0_8.rect t)).set ↔ _
  rw [View.set_slice_whole, Rect.mem_set_unit]
  exact Iff.rfl

/-- THE OUTPUT ARRAY after the region: the blocks tile it — row `b` of plane `w` is in the block of point `8 (b / 32) + w`. -/
theorem final (c : Dev nD) : (dats m 0 c).arrAt 8 cfg0.N = resultT m c :=
  (dats m 0 c).arrAt_eq_of_cover 8 (resultT m c) (fun t _ => flushed_eq m c t) fun i => by
    have h0 : (i 0).val < 8 := (i 0).isLt
    have h1 : (i 1).val < 512 := (i 1).isLt
    have h2 : (i 2).val < 64 := (i 2).isLt
    have hN : cfg0.N = 128 := N_0
    have ht : (i 1).val / 32 * 8 + (i 0).val < cfg0.N := by rw [hN]; omega
    obtain ⟨-, -, -, -, -, -, -, -, -, -, -, -, -, -, -, -, -, -, -, e0, e1, e2⟩ := idx_facts ⟨(i 1).val / 32 * 8 + (i 0).val, ht⟩
    refine ⟨⟨(i 1).val / 32 * 8 + (i 0).val, ht⟩, flush0_8 _, ?_⟩
    rw [mem_blk]
    intro a
    match a with
    | ⟨0, _⟩ =>
      show win0_8.index ⟨(i 1).val / 32 * 8 + (i 0).val, ht⟩ (0 : Fin 3) * 1 ≤ (i 0).val
        ∧ (i 0).val < win0_8.index ⟨(i 1).val / 32 * 8 + (i 0).val, ht⟩ (0 : Fin 3) * 1 + 1
      rw [e0]; show ((i 1).val / 32 * 8 + (i 0).val) % 8 * 1 ≤ (i 0).val ∧ (i 0).val < ((i 1).val / 32 * 8 + (i 0).val) % 8 * 1 + 1
      omega
    | ⟨1, _⟩ =>
      show win0_8.index ⟨(i 1).val / 32 * 8 + (i 0).val, ht⟩ (1 : Fin 3) * 32 ≤ (i 1).val
        ∧ (i 1).val < win0_8.index ⟨(i 1).val / 32 * 8 + (i 0).val, ht⟩ (1 : Fin 3) * 32 + 32
      rw [e1]; show ((i 1).val / 32 * 8 + (i 0).val) / 8 * 32 ≤ (i 1).val ∧ (i 1).val < ((i 1).val / 32 * 8 + (i 0).val) / 8 * 32 + 32
      omega
    | ⟨2, _⟩ =>
      show win0_8.index ⟨(i 1).val / 32 * 8 + (i 0).val, ht⟩ (2 : Fin 3) * 64 ≤ (i 2).val
        ∧ (i 2).val < win0_8.index ⟨(i 1).val / 32 * 8 + (i 0).val, ht⟩ (2 : Fin 3) * 64 + 64
      rw [e2]; omega

/-! ## The transpose after the region, and the run -/

/-- The program's result: the region's output array with its first two axes swapped. -/
theorem tail_eq (c : Dev nD) : Pipeline.afterTail₀ cfgs (dats m) 0 (V0 m) [hostOps1] c main_v9 = result m c := by
  unfold Pipeline.afterTail₀
  show StableHlo.after hostOps1 _ (Proc.devRef .tc main_v9) = _
  after_results
  have e8 : Pipeline.withArrays (cfgs 0).spec c (V0 m c) (fun w => (dats m 0 c).arrAt w (cfgs 0).N) (Proc.devRef .tc main_v8) = resultT m c :=
    (Pipeline.withArrays_arr spec0 launch0.win.arr_inj c _ _ 8).trans (final m c)
  rw [e8]
  funext i
  obtain ⟨b, w, h, rfl⟩ : ∃ (b : Fin 512) (w : Fin 8) (h : Fin 64), i = ix3 b w h := ⟨i 0, i 1, i 2, eq_ix3 i⟩
  exact transpose_apply _ (resultT m c) transposes_S8x512x64_S512x8x64_1_0_2 (ix3 b w h) (ix3 w b h)
    (fun a => match a with | ⟨0, _⟩ => rfl | ⟨1, _⟩ => rfl | ⟨2, _⟩ => rfl)

/-- THE RUN, READ: every weakly fair execution ends with the result buffer at `G` of the arguments and the arguments
    unchanged: an array a window only fetches from is never written back, and no host operation writes an argument. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v9 (Pipeline.mem_restRefs_of main_v9 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Hand

end
-- ==== Proof.RefValue.lean ====
/-
  The reference, read stage by stage at explicit coordinates, is the function `Cert.Pooling.G` of its arguments.

  Every stage of the reference's run is one operation of a whole array. Read at the coordinates
  `(b, w, s, ·)` of a batch row, a window and a key position, the stages are, in order: the feature
  vector (four bands laid end to end), the first linear layer (a sum over the 256 features), the leaky
  rectifier, the second linear layer (a sum over the 36 hidden units), the mask, the row's maximum (a
  fold over the 200 positions, taken once more against `-∞`, which changes nothing), the exponentials,
  their sum (from the initial value `0`), the quotient, and the weighted sum of the key rows.
-/
import proofs.«416903_j3925600108827_3_alg».proof.Proof.Gen.ReferenceIdeal.Read
import proofs.«416903_j3925600108827_3_alg».proof.Proof.Spec

noncomputable section

namespace Cert.ReferenceIdeal.RefValue

open Cert.ReferenceIdeal Cert.ReferenceIdeal.Gen Cert.ReferenceIdeal.Read Cert.Pooling Idealize.ShloMosaic Idealize.ShloMosaic.ValueIdx

variable (x0 : (⟨S512x64, .f32⟩ : BufTy).Contents (Elt Ideal)) (x1 : (⟨S512x8x200x64, .f32⟩ : BufTy).Contents (Elt Ideal))
  (x2 : (⟨S36x256, .f32⟩ : BufTy).Contents (Elt Ideal)) (x3 : (⟨S36, .f32⟩ : BufTy).Contents (Elt Ideal))
  (x4 : (⟨S_, .f32⟩ : BufTy).Contents (Elt Ideal)) (x5 : (⟨S1x36, .f32⟩ : BufTy).Contents (Elt Ideal))
  (x6 : (⟨S1, .f32⟩ : BufTy).Contents (Elt Ideal)) (x7 : (⟨S512x8x200x1, .i1⟩ : BufTy).Contents (Elt Ideal))

/-- The query broadcast over windows and positions reads the query row of the batch coordinate. -/
theorem query_at (b : Fin 512) (w : Fin 8) (s : Fin 200) (h : Fin 64) :
    val_main_v1 (F := Ideal) x0 (ix4 b w s h) = x0 (ix2 b h) := by
  rw [val_main_v1_apply, val_main_v0_apply]
  exact congrArg x0 (funext fun a => Fin.ext (by match a with | ⟨0, _⟩ => rfl | ⟨1, _⟩ => rfl))

/-- Off the joined axis a band's index and the feature index have the same coordinates. -/
theorem off_axis (b : Fin 512) (w : Fin 8) (s : Fin 200) (g : Fin 64) (f : Fin 256)
    (c : Fin S512x8x200x64.rank) (hc : c.cast (rfl : S512x8x200x64.rank = S512x8x200x256.rank) ≠ (3 : Fin S512x8x200x256.rank)) :
    ((ix4 b w s g : S512x8x200x64.Idx) c).val = ((ix4 b w s f : S512x8x200x256.Idx) (c.cast rfl)).val := by
  match c, hc with
  | ⟨0, _⟩, _ => rfl
  | ⟨1, _⟩, _ => rfl
  | ⟨2, _⟩, _ => rfl
  | ⟨3, _⟩, hc => exact absurd (Fin.ext rfl) hc

/-- The joined array at feature `f` is the band that holds `f`, at `f` less the bands before it. -/
theorem feat_at (b : Fin 512) (w : Fin 8) (s : Fin 200) (f : Fin 256) :
    val_main_v4 (F := Ideal) x0 x1 (ix4 b w s f) = feat (fun h => x0 (ix2 b h)) (fun h => x1 (ix4 b w s h)) f := by
  have hf := f.isLt
  unfold val_main_v4 feat
  by_cases h0 : f.val < 64
  · rw [dif_pos h0]
    refine (concatenate_apply_piece (3 : Fin S512x8x200x256.rank)
        [⟨S512x8x200x64, val_main_v1 (F := Ideal) x0⟩, ⟨S512x8x200x64, x1⟩, ⟨S512x8x200x64, val_main_v2 (F := Ideal) x0 x1⟩, ⟨S512x8x200x64, val_main_v3 (F := Ideal) x0 x1⟩]
        concatenates_S512x8x200x64_S512x8x200x64_S512x8x200x64_S512x8x200x64_S512x8x200x256_d3 (ix4 b w s f) 0 (by show (0 : Nat) < 4; omega) S512x8x200x64 _ rfl rfl 0 (by rfl)
      (ix4 b w s ⟨f.val, h0⟩) (off_axis b w s _ f) (by show 0 + f.val = f.val; omega)).trans ?_
    exact query_at x0 b w s _
  · rw [dif_neg h0]
    by_cases h1 : f.val < 128
    · rw [dif_pos h1]
      exact concatenate_apply_piece (3 : Fin S512x8x200x256.rank)
        [⟨S512x8x200x64, val_main_v1 (F := Ideal) x0⟩, ⟨S512x8x200x64, x1⟩, ⟨S512x8x200x64, val_main_v2 (F := Ideal) x0 x1⟩, ⟨S512x8x200x64, val_main_v3 (F := Ideal) x0 x1⟩]
        concatenates_S512x8x200x64_S512x8x200x64_S512x8x200x64_S512x8x200x64_S512x8x200x256_d3 (ix4 b w s f) 1 (by show (1 : Nat) < 4; omega) S512x8x200x64 _ rfl rfl 64 (by rfl)
        (ix4 b w s ⟨f.val - 64, by omega⟩) (off_axis b w s _ f) (by show 64 + (f.val - 64) = f.val; omega)
    · rw [dif_neg h1]
      by_cases h2 : f.val < 192
      · rw [dif_pos h2]
        refine (concatenate_apply_piece (3 : Fin S512x8x200x256.rank)
        [⟨S512x8x200x64, val_main_v1 (F := Ideal) x0⟩, ⟨S512x8x200x64, x1⟩, ⟨S512x8x200x64, val_main_v2 (F := Ideal) x0 x1⟩, ⟨S512x8x200x64, val_main_v3 (F := Ideal) x0 x1⟩]
        concatenates_S512x8x200x64_S512x8x200x64_S512x8x200x64_S512x8x200x64_S512x8x200x256_d3 (ix4 b w s f) 2 (by show (2 : Nat) < 4; omega) S512x8x200x64 _ rfl rfl 128 (by rfl)
          (ix4 b w s ⟨f.val - 128, by omega⟩) (off_axis b w s _ f) (by show 128 + (f.val - 128) = f.val; omega)).trans ?_
        rw [val_main_v2_apply, query_at]; rfl
      · rw [dif_neg h2]
        refine (concatenate_apply_piece (3 : Fin S512x8x200x256.rank)
        [⟨S512x8x200x64, val_main_v1 (F := Ideal) x0⟩, ⟨S512x8x200x64, x1⟩, ⟨S512x8x200x64, val_main_v2 (F := Ideal) x0 x1⟩, ⟨S512x8x200x64, val_main_v3 (F := Ideal) x0 x1⟩]
        concatenates_S512x8x200x64_S512x8x200x64_S512x8x200x64_S512x8x200x64_S512x8x200x256_d3 (ix4 b w s f) 3 (by show (3 : Nat) < 4; omega) S512x8x200x64 _ rfl rfl 192 (by rfl)
          (ix4 b w s ⟨f.val - 192, by omega⟩) (off_axis b w s _ f) (by show 192 + (f.val - 192) = f.val; omega)).trans ?_
        rw [val_main_v3_apply, query_at]; rfl

/-- The first linear layer with its bias, at hidden unit `o`. -/
theorem hidden_at (b : Fin 512) (w : Fin 8) (s : Fin 200) (o : Fin 36) :
    val_main_v8 (F := Ideal) x0 x1 x2 x3 (ix4 b w s o)
      = layer1 (fun o f => x2 (ix2 o f)) (fun o => x3 (ix1 o)) (fun h => x0 (ix2 b h)) (fun h => x1 (ix4 b w s h)) o := by
  rw [val_main_v8_apply, val_main_v5_apply, val_main_v7_apply, val_main_v6_apply]
  unfold layer1
  refine congrArg₂ (· + ·) (Finset.sum_congr rfl fun f _ => ?_) (congrArg x3 (funext fun a => Fin.ext (by match a with | ⟨0, _⟩ => rfl)))
  rw [show lidx_main_v5 (ix4 b w s o) f = ix4 b w s f from
      funext fun a => Fin.ext (by match a with | ⟨0, _⟩ => rfl | ⟨1, _⟩ => rfl | ⟨2, _⟩ => rfl | ⟨3, _⟩ => rfl),
    show ridx_main_v5 (ix4 b w s o) f = ix2 o f from funext fun a => Fin.ext (by match a with | ⟨0, _⟩ => rfl | ⟨1, _⟩ => rfl),
    feat_at]

/-- The leaky rectifier of the hidden unit. -/
theorem leaky_at (b : Fin 512) (w : Fin 8) (s : Fin 200) (o : Fin 36) :
    val_main_v13 (F := Ideal) x0 x1 x2 x3 x4 (ix4 b w s o)
      = leaky (x4 ix0) (layer1 (fun o f => x2 (ix2 o f)) (fun o => x3 (ix1 o)) (fun h => x0 (ix2 b h)) (fun h => x1 (ix4 b w s h)) o) := by
  rw [val_main_v13_apply, val_main_v10_apply, val_main_v12_apply, val_main_v11_apply, val_main_v9_apply, val_main_cst_apply, hidden_at]
  rfl

/-- The second linear layer with its bias: the position's score. -/
theorem score_at (b : Fin 512) (w : Fin 8) (s : Fin 200) :
    val_main_v17 (F := Ideal) x0 x1 x2 x3 x4 x5 x6 (ix4 b w s (0 : Fin 1))
      = score (fun o f => x2 (ix2 o f)) (fun o => x3 (ix1 o)) (x4 ix0) (fun o => x5 (ix2 (0 : Fin 1) o)) (x6 (ix1 (0 : Fin 1)))
          (fun h => x0 (ix2 b h)) (fun h => x1 (ix4 b w s h)) := by
  rw [val_main_v17_apply, val_main_v14_apply, val_main_v16_apply, val_main_v15_apply]
  unfold score
  refine congrArg₂ (· + ·) (Finset.sum_congr rfl fun o _ => ?_) (congrArg x6 (funext fun a => Fin.ext (by match a with | ⟨0, _⟩ => rfl)))
  rw [show lidx_main_v14 (ix4 b w s (0 : Fin 1)) o = ix4 b w s o from
      funext fun a => Fin.ext (by match a with | ⟨0, _⟩ => rfl | ⟨1, _⟩ => rfl | ⟨2, _⟩ => rfl | ⟨3, _⟩ => rfl),
    show ridx_main_v14 (ix4 b w s (0 : Fin 1)) o = ix2 (0 : Fin 1) o from
      funext fun a => Fin.ext (by match a with | ⟨0, _⟩ => rfl | ⟨1, _⟩ => rfl),
    leaky_at]

/-- The masked score. -/
theorem masked_at (b : Fin 512) (w : Fin 8) (s : Fin 200) :
    val_main_v18 (F := Ideal) x0 x1 x2 x3 x4 x5 x6 x7 (ix4 b w s (0 : Fin 1)) = scores x0 x1 x2 x3 x4 x5 x6 x7 b w s := by
  rw [val_main_v18_apply, val_main_call1_v0_apply, val_main_cst_0_apply, score_at]
  rfl

/-- The row's maximum: the fold over the positions, and one more maximum with `-∞`. -/
theorem max_at (b : Fin 512) (w : Fin 8) :
    val_main_v21 (F := Ideal) x0 x1 x2 x3 x4 x5 x6 x7 (ix3 b w (0 : Fin 1)) = rowMax (scores x0 x1 x2 x3 x4 x5 x6 x7 b w) := by
  have hred : S512x8x200x1.Reduces [(2 : Fin S512x8x200x1.rank)] S512x8x1 := by decide
  rw [val_main_v21_apply, val_main_v20_apply, val_main_cst_2_apply]
  unfold val_main_v19
  rw [Host.reduce_eq_fold_single FloatOps.maximumf _ _ reducesTo_S512x8x200x1_S512x8x1_d2 hred h_S_ (ix3 b w (0 : Fin 1)),
    val_main_cst_1_apply]
  have hrow : (val_main_v18 (F := Ideal) x0 x1 x2 x3 x4 x5 x6 x7 ∘ hred.lift (ix3 b w (0 : Fin 1))) = scores x0 x1 x2 x3 x4 x5 x6 x7 b w :=
    funext fun s => by
      show val_main_v18 (F := Ideal) x0 x1 x2 x3 x4 x5 x6 x7 (hred.lift (ix3 b w (0 : Fin 1)) s) = _
      rw [show hred.lift (ix3 b w (0 : Fin 1)) s = ix4 b w s (0 : Fin 1) from funext fun a => Fin.ext (by
        rw [Shape.Reduces.lift_val]
        match a with | ⟨0, _⟩ => rfl | ⟨1, _⟩ => rfl | ⟨2, _⟩ => rfl | ⟨3, _⟩ => rfl)]
      exact masked_at x0 x1 x2 x3 x4 x5 x6 x7 b w s
  rw [hrow]
  exact max_fold_max _ _ _

/-- The exponential of the masked score less the row's maximum. -/
theorem expo_at (b : Fin 512) (w : Fin 8) (s : Fin 200) :
    val_main_v25 (F := Ideal) x0 x1 x2 x3 x4 x5 x6 x7 (ix4 b w s (0 : Fin 1)) = expo (scores x0 x1 x2 x3 x4 x5 x6 x7 b w) s := by
  rw [val_main_v25_apply, val_main_v24_apply, val_main_v23_apply, val_main_v22_apply, masked_at,
    show idx_main_v22 (idx_main_v23 (ix4 b w s (0 : Fin 1))) = ix3 b w (0 : Fin 1) from
      funext fun a => Fin.ext (by match a with | ⟨0, _⟩ => rfl | ⟨1, _⟩ => rfl | ⟨2, _⟩ => rfl),
    max_at]
  rfl

/-- The sum of the row's exponentials, from the initial value `0`. -/
theorem total_at (b : Fin 512) (w : Fin 8) :
    val_main_v26 (F := Ideal) x0 x1 x2 x3 x4 x5 x6 x7 (ix3 b w (0 : Fin 1)) = ∑ s : Fin 200, expo (scores x0 x1 x2 x3 x4 x5 x6 x7 b w) s := by
  rw [val_main_v26_apply, val_main_cst_3_apply, Ideal.ofBits_def, Ideal.ofBits_zero_f32, zero_add]
  refine Finset.sum_congr rfl fun s _ => ?_
  rw [show idx_main_v26 (ix3 b w (0 : Fin 1)) s = ix4 b w s (0 : Fin 1) from
      funext fun a => Fin.ext (by match a with | ⟨0, _⟩ => rfl | ⟨1, _⟩ => rfl | ⟨2, _⟩ => rfl | ⟨3, _⟩ => rfl)]
  exact expo_at x0 x1 x2 x3 x4 x5 x6 x7 b w s

/-- The softmax weight of a position. -/
theorem weight_at (b : Fin 512) (w : Fin 8) (s : Fin 200) :
    val_main_v29 (F := Ideal) x0 x1 x2 x3 x4 x5 x6 x7 (ix4 b w s (0 : Fin 1)) = weight (scores x0 x1 x2 x3 x4 x5 x6 x7 b w) s := by
  rw [val_main_v29_apply, val_main_v28_apply, val_main_v27_apply, expo_at,
    show idx_main_v27 (idx_main_v28 (ix4 b w s (0 : Fin 1))) = ix3 b w (0 : Fin 1) from
      funext fun a => Fin.ext (by match a with | ⟨0, _⟩ => rfl | ⟨1, _⟩ => rfl | ⟨2, _⟩ => rfl),
    total_at]
  rfl

/-- THE REFERENCE'S RESULT is `G` of its arguments: the key rows summed under the softmax weights. -/
theorem result_eq : val_main_v32 (F := Ideal) x0 x1 x2 x3 x4 x5 x6 x7 = G x0 x1 x2 x3 x4 x5 x6 x7 := by
  funext i
  obtain ⟨b, w, h, rfl⟩ : ∃ (b : Fin 512) (w : Fin 8) (h : Fin 64), i = ix3 b w h := ⟨i 0, i 1, i 2, eq_ix3 i⟩
  rw [val_main_v32_apply, val_main_cst_4_apply, Ideal.ofBits_def, Ideal.ofBits_zero_f32, zero_add]
  unfold G pooled
  refine Finset.sum_congr rfl fun s _ => ?_
  rw [show idx_main_v32 (ix3 b w h) s = ix4 b w s h from
      funext fun a => Fin.ext (by match a with | ⟨0, _⟩ => rfl | ⟨1, _⟩ => rfl | ⟨2, _⟩ => rfl | ⟨3, _⟩ => rfl),
    val_main_v31_apply, val_main_v30_apply,
    show idx_main_v30 (ix4 b w s h) = ix4 b w s (0 : Fin 1) from
      funext fun a => Fin.ext (by match a with | ⟨0, _⟩ => rfl | ⟨1, _⟩ => rfl | ⟨2, _⟩ => rfl | ⟨3, _⟩ => rfl),
    weight_at]
  rfl

end Cert.ReferenceIdeal.RefValue

end
-- ==== Proof.lean ====
/-
  The kernel pools the key rows of each batch row and window under softmax weights computed from a small
  two-layer network, and so does the reference; on the extended reals the two are one function of the arguments.

  For batch row `b`, window `w` and key position `s` the feature vector is the four bands `q`, `k`, `q - k`, `q * k`
  (`q` the query row of `b`, `k` the key row at `(b, w, s)`); a linear layer to 36 hidden units, a leaky rectifier and a
  linear layer to one number give the position's score; a masked position's score is the constant `-10000`; the
  softmax of the 200 scores weighs the key rows, which are summed. That function of the whole argument arrays is
  `Cert.Pooling.G` (Proof/Spec.lean).

  The kernel computes it 32 batch rows of one window at a time: the features of the 32 × 200 (row, position) pairs are
  flattened into 6400 rows for ONE matrix product with the transposed first-layer weights, where the reference
  contracts the last axis of a rank-4 array; both are the same sum over the 256 features. The second layer is a
  lane sum in the kernel and a contraction in the reference: the same sum over the 36 hidden units. The kernel's mask
  arrives as 32-bit words compared with zero, the reference's as bits: a widened bit differs from zero exactly when it
  is set. The reference takes the row's maximum once more against `-∞` and starts its sums from an explicit `0`; neither
  changes a value. The kernel's 128 blocks tile a `[8, 512, 64]` array that a last transpose turns into the result.
  No step uses a law that fails at an infinity, so the precondition (finite inputs) is not used.

  Proof/KernelBody.lean reads the kernel's body at explicit coordinates, Proof/KernelValue.lean the blocks as rows of the
  arguments, the tiling and the last transpose; Proof/RefValue.lean reads the reference stage by stage.
  `preserves` has no entry: the idealized kernel is the kernel's own text read on the extended reals.
-/
import proofs.«416903_j3925600108827_3_alg».proof.Defs
import proofs.«416903_j3925600108827_3_alg».proof.Proof.Gen.Kernel
import proofs.«416903_j3925600108827_3_alg».proof.Proof.Gen.Kernel.Skeleton
import proofs.«416903_j3925600108827_3_alg».proof.Proof.Gen.Kernel.Launch
import proofs.«416903_j3925600108827_3_alg».proof.Proof.Gen.Kernel.Points
import proofs.«416903_j3925600108827_3_alg».proof.Proof.Gen.Kernel.Frame
import proofs.«416903_j3925600108827_3_alg».proof.Proof.Gen.KernelIdeal
import proofs.«416903_j3925600108827_3_alg».proof.Proof.Gen.KernelIdeal.Skeleton
import proofs.«416903_j3925600108827_3_alg».proof.Proof.Gen.KernelIdeal.Launch
import proofs.«416903_j3925600108827_3_alg».proof.Proof.Gen.KernelIdeal.Points
import proofs.«416903_j3925600108827_3_alg».proof.Proof.Gen.KernelIdeal.Frame
import proofs.«416903_j3925600108827_3_alg».proof.Proof.Gen.ReferenceIdeal
import proofs.«416903_j3925600108827_3_alg».proof.Proof.Gen.Pre_finite_inputs
import proofs.«416903_j3925600108827_3_alg».proof.Proof.Gen.ReferenceIdeal.Run
import proofs.«416903_j3925600108827_3_alg».proof.Proof.Gen.ReferenceIdeal.Read
import proofs.«416903_j3925600108827_3_alg».proof.Proof.KernelValue
import proofs.«416903_j3925600108827_3_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals both programs end with the result buffer at `G` of the arguments: the kernel by its blocks
    (Proof/KernelValue.lean), the reference by its stages (Proof/RefValue.lean), from memories that agree on the arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v32_eq, Cert.ReferenceIdeal.RefValue.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
